-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S32x8x128 : Shape := ⟨3, ![32, 8, 128]⟩
abbrev S128x512 : Shape := ⟨2, ![128, 512]⟩
abbrev S128x1 : Shape := ⟨2, ![128, 1]⟩
abbrev S1x8x128 : Shape := ⟨3, ![1, 8, 128]⟩
abbrev S128x4096 : Shape := ⟨2, ![128, 4096]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S32x8x128, .f32⟩
  | .hbm, ⟨5, _⟩ => ⟨S32x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S4096x512, .f32⟩
  | .local _ .vmem, ⟨3, _⟩ => ⟨S128x1, .i32⟩
  | .local _ .vmem, ⟨4, _⟩ => ⟨S128x1, .i32⟩
  | .local _ .vmem, ⟨5, _⟩ => ⟨S1x4096, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S4096x1 : S4096.ShapeCasts S4096x1
  shapeCasts_S4096_S1x4096 : S4096.ShapeCasts S1x4096
  inb_S128x512_S128x512_0_0 : ∀ a, (![0, 0] : Fin 2 → Nat) a + S128x512.size a ≤ S128x512.size a
  h_S128x512 : 0 < S128x512.numel
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  reduces_S128x512_S128 : S128x512.Reduces [1] S128
  shapeCasts_S128_S128x1 : S128.ShapeCasts S128x1
  reduces_S4096x512_S4096 : S4096x512.Reduces [1] S4096
  transposes_S4096x1_p1_0_S1x4096 : S4096x1.Transposes [1, 0] S1x4096
  broadcasts_S128x1_S128x4096 : S128x1.Broadcasts S128x4096
  broadcasts_S1x4096_S128x4096 : S1x4096.Broadcasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  natLt_1_32 : 1 < 32
  iota_S128x1_d0_w32 : S128x1.Iotas .tc 32 [0]
  iota_S1x4096_d1_w32 : S1x4096.Iotas .tc 32 [1]
  reduces_S128x4096_S128 : S128x4096.Reduces [1] S128
  reduces_S128x1_S1 : S128x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S32x8x128_S_d0_1_2 : S32x8x128.ReducesTo [0, 1, 2] S_
  h_S_ : 0 < S_.numel
  dot_S128x512_S4096x512_S128x4096_1_1_0_0_n_n_wf : DotDims.WF S128x512 S4096x512 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x4096, .f32⟩
  | .hbm, ⟨3, _⟩ => ⟨S4096x4096, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .i1⟩
  | .hbm, ⟨61, _⟩ => ⟨S_, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  transposes_S4096x512_S512x4096_1_0 : S4096x512.Transposes [1, 0] S512x4096
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  reducesTo_S4096x4096_S_d0_1 : S4096x4096.ReducesTo [0, 1] S_
  reducesTo_S4096x1_S_d0_1 : S4096x1.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KData.lean ====
/-
  The proof data of the one kernel region, shared by the body's run, the launch and the value reading.

  The region finds every buffer as the two reshapes before it leave them (`V`); window `w`'s block at grid point `t`
  is read off its array there (`iblk`). The body reads four blocks — a 128-row tile of the features, all 4096 rows of
  the features (the SAME array, through a second window), the tile's targets as a column and all targets as a row — and
  stores one value into each of the two output tiles: the tile's summed loss (`lossTile`) and its summed count of
  positives (`cardTile`), each broadcast over an 8 × 128 tile. The features' array is held by its two windows at the
  two halves of the full share; every other input at the full share.
-/
import proofs.«137512_j75926431859348_1_alg».proof.Proof.Gen.KernelIdeal.Launch
import proofs.«137512_j75926431859348_1_alg».proof.Proof.Gen.KernelIdeal.Skeleton
import proofs.«137512_j75926431859348_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the two reshapes of the targets. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The loss tile stored at grid coordinates `i`, from the four input blocks: the features' tile `q`, all the features
    `k`, the tile's targets `tr` and all targets `tc`. -/
def lossTile (i : grid0.Coords) (q : Vec F S128x512 .f32) (k : Vec F S4096x512 .f32) (tr : Vec F S128x1 .i32) (tc : Vec F S1x4096 .i32) :
    Vec F S1x8x128 .f32 :=
  k0_pay2 (k0_pay4 tr tc) (k0_pay5 (F := F) i) (k0_pay6 q k)

/-- The tile of positives' counts stored at a point, from its two target blocks. -/
def cardTile (tr : Vec F S128x1 .i32) (tc : Vec F S1x4096 .i32) : Vec F S1x8x128 .f32 :=
  k0_pay3 (k0_pay4 tr tc)

/-- What the host lines after the region make of the two result arrays: each summed over all its 32 × 8 × 128 entries and
    divided by 1024 (every tile entry is repeated 8 · 128 times), then the quotient of the two. -/
def tailVal (X4 X5 : Vec F S32x8x128 .f32) : Vec F S_ .f32 :=
  Host.divf
    (Host.divf (Host.reduceAdd X4 (constant S_ .f32 0x00000000#32) reducesTo_S32x8x128_S_d0_1_2 h_S_) (constant S_ .f32 0x44800000#32))
    (Host.divf (Host.reduceAdd X5 (constant S_ .f32 0x00000000#32) reducesTo_S32x8x128_S_d0_1_2 h_S_) (constant S_ .f32 0x44800000#32))

/-! ## The proof data -/

/-- The proof data of the region on core `c`: the arrays as the region finds them; after the body at point `t` each input's
    buffer at its block and the two outputs' at the stored tiles; the invariant the scoped rest and the generator register,
    untouched; nothing owed; the features' array split in halves between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossTile (grid0.coords t) (iblk m c 0 t) (iblk m c 1 t) (iblk m c 2 t) (iblk m c 3 t)
    | ⟨5, _⟩ => cardTile (iblk m c 2 t) (iblk m c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = lossTile (grid0.coords t) (iblk m c 0 t) (iblk m c 1 t) (iblk m c 2 t) (iblk m c 3 t) := by dsimp only [dats]
theorem after0_5 (c : Dev nD) (t : Fin cfg0.N) : (dats m 0 c).after 5 t = cardTile (iblk m c 2 t) (iblk m c 3 t) := by dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

end Cert.KernelIdeal.Hand

end
-- ==== Proof.KBody.lean ====
/-
  The kernel body's run at one grid point.

  At a point the body finds the four input buffers at their blocks — the features' 128-row tile, all 4096 rows of the
  features, the tile's targets as a column, all targets as a row — whether or not the block was fetched at that point
  (the two whole-array windows are fetched once, at the first point, and their block never moves). It reads the four
  whole, reads each output tile whole (the value is not used) and then stores each output tile whole: the tile's summed
  loss and its summed count of positives, each a function of the four blocks (and, for the loss, of the tile's place in
  the grid, which fixes where the diagonal falls). One whole store leaves exactly its value, so the outputs' buffers end
  at `lossTile` and `cardTile` of the blocks; the inputs are left as found.
-/
import proofs.«137512_j75926431859348_1_alg».proof.Proof.KData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Zero offsets, however spelt. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The body's triple -/

set_option maxHeartbeats 1000000 in
/-- The kernel body on whole buffers, the four inputs' at read contents `x0 … x3` and the two outputs' at anything, runs to
    the continuation holding the inputs' as they were, the first output's at the loss tile of the four and the second's at
    the count tile of the two target blocks: each load through the whole rectangle reads the contents, and the one store
    through the whole rectangle leaves its value. -/
theorem sound_kernel (c : Dev nD) (E : Set ℕ) (i : grid0.Coords)
    (arg1 : Memref sig .tc .vmem S128x512 .f32) (harg1 : arg1.IsWhole)
    (arg2 : Memref sig .tc .vmem S4096x512 .f32) (harg2 : arg2.IsWhole)
    (arg3 : Memref sig .tc .vmem S128x1 .i32) (harg3 : arg3.IsWhole)
    (arg4 : Memref sig .tc .vmem S1x4096 .i32) (harg4 : arg4.IsWhole)
    (arg5 : Memref sig .tc .vmem S1x8x128 .f32) (harg5 : arg5.IsWhole)
    (arg6 : Memref sig .tc .vmem S1x8x128 .f32) (harg6 : arg6.IsWhole)
    (x0 : Vec F S128x512 .f32) (x1 : Vec F S4096x512 .f32) (x2 : Vec F S128x1 .i32) (x3 : Vec F S1x4096 .i32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (lossTile i x0 x1 x2 x3)
            ∗ owns (c : Thread nD τ) arg6 fullShare (cardTile x2 x3)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton, k0_part1_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz3 inb_S1x8x128_S1x8x128_0_0_0 y⟩),
      View.canon_unit_zero hz3]
    unfold lossTile
    sl_unfold_run_names
    simp only [View.readAt_eq_ld, View.ld_unit_zero (S := S128x1) hz2, View.ld_unit_zero (S := S1x4096) hz2,
      View.ld_unit_zero (S := S128x512) hz2, View.ld_unit_zero (S := S4096x512) hz2]
  iexists _; isplitr
  swap; · iexact H5
  ipureintro
  rw [View.read_writes_eq_canon _ _ _ (fun y => ⟨_, List.mem_singleton_self _, View.mem_set_unit_zero hz3 inb_S1x8x128_S1x8x128_0_0_0 y⟩),
    View.canon_unit_zero hz3]
  unfold cardTile
  sl_unfold_run_names
  simp only [View.readAt_eq_ld, View.ld_unit_zero (S := S128x1) hz2, View.ld_unit_zero (S := S1x4096) hz2]

/-! ## The input windows' buffers at a point -/

/-- The features' tile window holds its block at every point: it is fetched at every point, uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The window on all the features holds the whole array at every point, though fetched at the first only: the body
    leaves it in place and its block index never moves. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The tile's targets, as a column: fetched at every point. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- All the targets, as a row: fetched at the first point only, in place ever after. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, what the core owes, and the six windows' current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the four inputs' buffers hold their blocks, the two outputs' anything, so the body's run applies;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KLaunch.lean ====
/-
  The program's run, from the proof data of its one kernel region.

  The region's first two windows read ONE array (the features): the launch hands the region that array's buffer whole, and
  it is dealt to the two windows in halves of the full share; both windows only read, so each ends holding the contents
  it was handed. After the region the nine host lines run within the two result arrays and the buffers that bypass the
  region, while the four input windows' shares ride along; they write neither a result array nor an argument. So the
  program terminates with its result buffer at the quotient of the two result arrays' scaled sums and both arguments as
  launched.
-/
import proofs.«137512_j75926431859348_1_alg».proof.Proof.KData
import Idealize.ShloMosaic.Lib.Pipeline.Kit
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The pipeline's arrays at contents `A`: the features' array at its two windows' halves of the full share, the two
    reshaped targets and the two results whole. -/
theorem arrays_chain (c : Dev nD) (A : (w : Fin cfg0.W) → Buf (Elt F) ((cfg0.win w).arr.view.loc (c.tc : Thread nD τ))) :
    ((dats m 0 c).arrays A : sProp 𝕄)
      = iprop((((c.tc : Thread nD τ).loc main_arg0) ↦{fullShare.left} A 0) ∗ (((c.tc : Thread nD τ).loc main_arg0) ↦{fullShare.right} A 1)
          ∗ (((c.tc : Thread nD τ).loc main_v0) ↦{fullShare} A 2) ∗ (((c.tc : Thread nD τ).loc main_v1) ↦{fullShare} A 3)
          ∗ (((c.tc : Thread nD τ).loc main_v2_0) ↦{fullShare} A 4) ∗ (((c.tc : Thread nD τ).loc main_v2_1) ↦{fullShare} A 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- The distinct buffers behind the windows' arrays, each whole at contents `W`. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2_0) ↦{fullShare} W main_v2_0)
          ∗ (((c.tc : Thread nD τ).loc main_v2_1) ↦{fullShare} W main_v2_1)) := by
  unfold Pipeline.arrBufs
  exact bigSep_eq_bigSepL_of_eq [main_arg0, main_v0, main_v1, main_v2_0, main_v2_1] (by decide) (by decide) _

/-- No host line before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The launch hands the region each array's buffer whole; the features' one is split between its two windows. -/
theorem hsplit (c : Dev nD) :
    (Pipeline.arrBufs spec0 c (V m c) : sProp 𝕄) ⊢ (dats m 0 c).arrays ((dats m 0 c).arrAt · 0) := by
  rw [arrBufs_chain, arrays_chain]
  iintro ⟨H0, H2, H3, H4, H5⟩
  icases (pointsTo_share (q := fullShare) (q₁ := fullShare.left) (q₂ := fullShare.right) (PosShare.mem_left_op_right fullShare)).1 $$ H0 with ⟨Hl, Hr⟩
  isplitl [Hl]; · iexact Hl
  isplitl [Hr]; · iexact Hr
  isplitl [H2]; · iexact H2
  isplitl [H3]; · iexact H3
  isplitl [H4]; · iexact H4
  iexact H5

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, then the nine host lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The host lines after the region -/

/-- The buffers those lines may touch: the two result arrays and every buffer that bypasses the region. -/
abbrev tailSet : Finset (Ref sig .tc) := insert main_v2_0 (insert main_v2_1 (Pipeline.restRefs sig spec0))
abbrev tailDev : Finset (DevRef τ sig) := tailSet.map ⟨Proc.devRef (sig := sig) .tc, Proc.devRef_injective _⟩

/-- The buffer contents at the region's exit as far as those lines see them: the two result arrays as the region left
    them, every other buffer as the region found it. -/
def exitVal (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

theorem held_tail (c : Dev nD) (W : Valuation τ sig (Elt F)) :
    (StableHlo.held (c.tc : Thread nD τ) tailDev W : sProp 𝕄)
      = iprop((((c.tc : Thread nD τ).loc main_v2_0) ↦{fullShare} W (Proc.devRef .tc main_v2_0))
          ∗ (((c.tc : Thread nD τ).loc main_v2_1) ↦{fullShare} W (Proc.devRef .tc main_v2_1))
          ∗ Pipeline.unscopedRest spec0 c (fun b => W (Proc.devRef .tc b))) := by
  unfold StableHlo.held tailDev tailSet
  rw [bigSep_map, bigSep_insert (by decide), bigSep_insert (by decide)]
  rfl

/-- Each of those lines touches only the result arrays and the bypassing buffers. -/
theorem tail_sub : ∀ ops ∈ ([hostOps1] : List (List (HloOp τ sig (Elt F)))), ∀ op ∈ ops, op.bufs ⊆ tailDev := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl <;>
    simp only [StableHlo.nullary_bufs, StableHlo.binary_bufs] <;> decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The result arrays at the region's exit are what the proof data says; -/
theorem exitVal_v2_0 (c : Dev nD) : exitVal m c (Proc.devRef .tc main_v2_0) = (dats m 0 c).arrAt 4 cfg0.N := by
  unfold exitVal
  rw [Function.update_of_ne (StableHlo.devRef_ne_of_ne (by decide)), Function.update_self]
theorem exitVal_v2_1 (c : Dev nD) : exitVal m c (Proc.devRef .tc main_v2_1) = (dats m 0 c).arrAt 5 cfg0.N := by
  unfold exitVal
  rw [Function.update_self]
/-- every other buffer is as the region found it. -/
theorem exitVal_of_ne (c : Dev nD) (b : Ref sig .tc) (h0 : b ≠ main_v2_0) (h1 : b ≠ main_v2_1) :
    exitVal m c (Proc.devRef .tc b) = V m c b := by
  unfold exitVal
  rw [Function.update_of_ne (StableHlo.devRef_ne_of_ne h1), Function.update_of_ne (StableHlo.devRef_ne_of_ne h0)]

/-- No line after the region writes a result array. -/
theorem after_v2_0 (W : Valuation τ sig (Elt F)) :
    StableHlo.after (List.flatten [hostOps1]) W (Proc.devRef .tc main_v2_0) = W (Proc.devRef .tc main_v2_0) :=
  StableHlo.after_of_forall_not_mem (b := Proc.devRef .tc main_v2_0) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide)))
theorem after_v2_1 (W : Valuation τ sig (Elt F)) :
    StableHlo.after (List.flatten [hostOps1]) W (Proc.devRef .tc main_v2_1) = W (Proc.devRef .tc main_v2_1) :=
  StableHlo.after_of_forall_not_mem (b := Proc.devRef .tc main_v2_1) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide)))

/-- What the bypassing buffers hold after those lines. -/
abbrev restAfter (c : Dev nD) : sProp 𝕄 :=
  Pipeline.unscopedRest spec0 c (fun b => StableHlo.after (List.flatten [hostOps1]) (exitVal m c) (Proc.devRef .tc b))

/-- Six resources of which four ride along: given the continuation that wants all six back with a seventh, holding
    the four, and being handed the other two with the seventh under an update, the continuation runs. -/
theorem tail_cont {P0 P1 P2 P3 P4 P5 R B H Wp : sProp 𝕄} (Q : sProp 𝕄) (hH : H = iprop(P4 ∗ P5 ∗ R))
    (hwp : Wp = iprop(|={Set.univ}=> Q)) :
    iprop((iprop(iprop(P0 ∗ P1 ∗ P2 ∗ P3 ∗ P4 ∗ P5) ∗ R) -∗ Q) ∗ P0 ∗ P1 ∗ P2 ∗ P3) ⊢ iprop(iprop(B ∗ H) -∗ Wp) := by
  subst hH hwp
  iintro ⟨Hk, H0, H1, H2, H3⟩ ⟨Hbd, H4, H5, HR⟩
  imodintro
  iapply Hk
  isplitr [HR]
  · isplitl [H0]; · iexact H0
    isplitl [H1]; · iexact H1
    isplitl [H2]; · iexact H2
    isplitl [H3]; · iexact H3
    isplitl [H4]; · iexact H4
    iexact H5
  iexact HR

set_option backward.isDefEq.respectTransparency.types false in
/-- From the region's exit the nine host lines run within the two result arrays and the bypassing buffers; the four
    input windows' shares of their arrays ride along untouched. -/
theorem htail (c : Dev nD) (Q' : PUnit → sProp 𝕄) :
    iprop((iprop((dats m 0 c).arrays ((dats m 0 c).arrAt · cfg0.N) ∗ restAfter m c) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hW : (StableHlo.held (c.tc : Thread nD τ) tailDev (exitVal m c) : sProp 𝕄)
      = iprop((((c.tc : Thread nD τ).loc main_v2_0) ↦{fullShare} (dats m 0 c).arrAt 4 cfg0.N)
          ∗ (((c.tc : Thread nD τ).loc main_v2_1) ↦{fullShare} (dats m 0 c).arrAt 5 cfg0.N)
          ∗ Pipeline.unscopedRest spec0 c (V m c)) := by
    rw [held_tail, exitVal_v2_0, exitVal_v2_1]
    congr 2
    all_goals
      unfold Pipeline.unscopedRest
      exact bigSep_congr fun b hb => by
        rw [exitVal_of_ne m c b (fun e => (Finset.mem_sdiff.mp hb).2 (e ▸ (by decide : main_v2_0 ∈ Finset.univ.image (Pipeline.arrRef spec0))))
          (fun e => (Finset.mem_sdiff.mp hb).2 (e ▸ (by decide : main_v2_1 ∈ Finset.univ.image (Pipeline.arrRef spec0))))]
  have hW' : (StableHlo.held (c.tc : Thread nD τ) tailDev (StableHlo.after (List.flatten [hostOps1]) (exitVal m c)) : sProp 𝕄)
      = iprop((((c.tc : Thread nD τ).loc main_v2_0) ↦{fullShare} (dats m 0 c).arrAt 4 cfg0.N)
          ∗ (((c.tc : Thread nD τ).loc main_v2_1) ↦{fullShare} (dats m 0 c).arrAt 5 cfg0.N)
          ∗ restAfter m c) := by
    rw [held_tail, after_v2_0, after_v2_1, exitVal_v2_0, exitVal_v2_1]
  rw [arrays_chain]
  have hcont := tail_cont (P0 := (((c.tc : Thread nD τ).loc main_arg0) ↦{fullShare.left} (dats m 0 c).arrAt 0 cfg0.N))
    (P1 := (((c.tc : Thread nD τ).loc main_arg0) ↦{fullShare.right} (dats m 0 c).arrAt 1 cfg0.N))
    (P2 := (((c.tc : Thread nD τ).loc main_v0) ↦{fullShare} (dats m 0 c).arrAt 2 cfg0.N))
    (P3 := (((c.tc : Thread nD τ).loc main_v1) ↦{fullShare} (dats m 0 c).arrAt 3 cfg0.N))
    (B := boundary (c.tc : Thread nD τ))
    (Wp := wp frame (wpE (Pipeline.defs (fun q => (cfgs q).toPCfg (Val := Elt F)) defs₀) (Variants.lift Variants.none) (c.tc : Thread nD τ) none) Set.univ
      (Pipeline.chain []) Q')
    (Q' ⟨⟩) hW' (by rw [Pipeline.chain_nil, wp_pure])
  iintro ⟨Hk, Hbd, ⟨Hl, Hr, H2, H3, H4, H5⟩, HZ⟩
  iapply (Pipeline.wp_seqs_then (fun q => (cfgs q).toPCfg (Val := Elt F)) defs₀ Variants.none c tailDev [] [hostOps1] tail_sub tail_fresh (exitVal m c)) $$ [Hbd H4 H5 HZ]
  · isplitl [Hbd]; · iexact Hbd
    rw [hW]
    isplitl [H4]; · iexact H4
    isplitl [H5]; · iexact H5
    iexact HZ
  iapply hcont
  isplitl [Hk]; · iexact Hk
  isplitl [Hl]; · iexact Hl
  isplitl [Hr]; · iexact Hr
  isplitl [H2]; · iexact H2
  iexact H3

/-! ## The run -/

/-- No host line, before the region or after it, writes the targets. -/
theorem after_main_arg1 (c : Dev nD) :
    StableHlo.after (List.flatten [hostOps1]) (exitVal m c) (Proc.devRef .tc main_arg1) = m ((c.tc : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide))),
    exitVal_of_ne m c main_arg1 (by decide) (by decide)]
  exact StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The last host line's result: the quotient of the two result arrays' scaled sums. -/
theorem after_main_v7 (c : Dev nD) :
    StableHlo.after (List.flatten [hostOps1]) (exitVal m c) (Proc.devRef .tc main_v7)
      = tailVal ((dats m 0 c).arrAt 4 cfg0.N) ((dats m 0 c).arrAt 5 cfg0.N) := by
  rw [← exitVal_v2_0 m c, ← exitVal_v2_1 m c]
  simp only [hostOps1, List.flatten_cons, List.flatten_nil, List.append_nil]
  after_results
  rfl

set_option backward.isDefEq.respectTransparency.types false in
/-- From any memory with zero counters every weakly fair execution of @main terminates; the result buffer ends at the
    quotient of the two result arrays' scaled sums, the arrays being what the proof data computes; the two arguments end
    as launched. Given the body obligation at every point. -/
theorem run_main_of (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_v7) = tailVal ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest spec0 c (V m c))
    (Z' := fun c => restAfter m c)
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefs sig spec0, s.mem ((c.tc : Thread nD τ).loc b) = StableHlo.after (List.flatten [hostOps1]) (exitVal m c) (Proc.devRef .tc b))
    (hY := fun c s' => by
      iintro ⟨-, HU, HSI⟩
      unfold restAfter Pipeline.unscopedRest
      imodintro
      iapply (pointsTo_read_all (Pipeline.restRefs sig spec0) (fun b => (c.tc : Thread nD τ).loc b)
        (fun b => StableHlo.after (List.flatten [hostOps1]) (exitVal m c) (Proc.devRef .tc b)) s')
      isplitl [HU] <;> iassumption)
    (hQ := fun s h c => ⟨((h c).2.2 main_v7 (Pipeline.mem_restRefs_of main_v7 (by decide) (by decide))).trans (after_main_v7 m c),
      ((h c).1 0).trans (((dats m 0 c).arrAt_in 0 rfl _).trans ((A_eq m c 0).trans (V_main_arg0 m c))),
      ((h c).2.2 main_arg1 (Pipeline.mem_restRefs_of main_arg1 (by decide) (by decide))).trans (after_main_arg1 m c)⟩)

end Cert.KernelIdeal.Hand

end
-- ==== Proof.BData.lean ====
/-
  The proof data of the one kernel region, shared by the body's run, the launch and the value reading.

  The region finds every buffer as the two reshapes before it leave them (`V`); window `w`'s block at grid point `t`
  is read off its array there (`iblk`). The body reads four blocks — a 128-row tile of the features, all 4096 rows of
  the features (the SAME array, through a second window), the tile's targets as a column and all targets as a row — and
  stores one value into each of the two output tiles: the tile's summed loss (`lossTile`) and its summed count of
  positives (`cardTile`), each broadcast over an 8 × 128 tile. The features' array is held by its two windows at the
  two halves of the full share; every other input at the full share.
-/
import proofs.«137512_j75926431859348_1_alg».proof.Proof.Gen.Kernel.Launch
import proofs.«137512_j75926431859348_1_alg».proof.Proof.Gen.Kernel.Skeleton
import proofs.«137512_j75926431859348_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the two reshapes of the targets. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The loss tile stored at grid coordinates `i`, from the four input blocks: the features' tile `q`, all the features
    `k`, the tile's targets `tr` and all targets `tc`. -/
def lossTile (i : grid0.Coords) (q : Vec F S128x512 .f32) (k : Vec F S4096x512 .f32) (tr : Vec F S128x1 .i32) (tc : Vec F S1x4096 .i32) :
    Vec F S1x8x128 .f32 :=
  k0_pay2 (k0_pay4 tr tc) (k0_pay5 (F := F) i) (k0_pay6 q k)

/-- The tile of positives' counts stored at a point, from its two target blocks. -/
def cardTile (tr : Vec F S128x1 .i32) (tc : Vec F S1x4096 .i32) : Vec F S1x8x128 .f32 :=
  k0_pay3 (k0_pay4 tr tc)

/-- What the host lines after the region make of the two result arrays: each summed over all its 32 × 8 × 128 entries and
    divided by 1024 (every tile entry is repeated 8 · 128 times), then the quotient of the two. -/
def tailVal (X4 X5 : Vec F S32x8x128 .f32) : Vec F S_ .f32 :=
  Host.divf
    (Host.divf (Host.reduceAdd X4 (constant S_ .f32 0x00000000#32) reducesTo_S32x8x128_S_d0_1_2 h_S_) (constant S_ .f32 0x44800000#32))
    (Host.divf (Host.reduceAdd X5 (constant S_ .f32 0x00000000#32) reducesTo_S32x8x128_S_d0_1_2 h_S_) (constant S_ .f32 0x44800000#32))

/-! ## The proof data -/

/-- The proof data of the region on core `c`: the arrays as the region finds them; after the body at point `t` each input's
    buffer at its block and the two outputs' at the stored tiles; the invariant the scoped rest and the generator register,
    untouched; nothing owed; the features' array split in halves between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossTile (grid0.coords t) (iblk m c 0 t) (iblk m c 1 t) (iblk m c 2 t) (iblk m c 3 t)
    | ⟨5, _⟩ => cardTile (iblk m c 2 t) (iblk m c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = lossTile (grid0.coords t) (iblk m c 0 t) (iblk m c 1 t) (iblk m c 2 t) (iblk m c 3 t) := by dsimp only [dats]
theorem after0_5 (c : Dev nD) (t : Fin cfg0.N) : (dats m 0 c).after 5 t = cardTile (iblk m c 2 t) (iblk m c 3 t) := by dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

end Cert.Kernel.Hand

end
-- ==== Proof.BBody.lean ====
/-
  The kernel body's run at one grid point.

  At a point the body finds the four input buffers at their blocks — the features' 128-row tile, all 4096 rows of the
  features, the tile's targets as a column, all targets as a row — whether or not the block was fetched at that point
  (the two whole-array windows are fetched once, at the first point, and their block never moves). It reads the four
  whole, reads each output tile whole (the value is not used) and then stores each output tile whole: the tile's summed
  loss and its summed count of positives, each a function of the four blocks (and, for the loss, of the tile's place in
  the grid, which fixes where the diagonal falls). One whole store leaves exactly its value, so the outputs' buffers end
  at `lossTile` and `cardTile` of the blocks; the inputs are left as found.
-/
import proofs.«137512_j75926431859348_1_alg».proof.Proof.BData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Zero offsets, however spelt. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The body's triple -/

set_option maxHeartbeats 1000000 in
/-- The kernel body on whole buffers, the four inputs' at read contents `x0 … x3` and the two outputs' at anything, runs to
    the continuation holding the inputs' as they were, the first output's at the loss tile of the four and the second's at
    the count tile of the two target blocks: each load through the whole rectangle reads the contents, and the one store
    through the whole rectangle leaves its value. -/
theorem sound_kernel (c : Dev nD) (E : Set ℕ) (i : grid0.Coords)
    (arg1 : Memref sig .tc .vmem S128x512 .f32) (harg1 : arg1.IsWhole)
    (arg2 : Memref sig .tc .vmem S4096x512 .f32) (harg2 : arg2.IsWhole)
    (arg3 : Memref sig .tc .vmem S128x1 .i32) (harg3 : arg3.IsWhole)
    (arg4 : Memref sig .tc .vmem S1x4096 .i32) (harg4 : arg4.IsWhole)
    (arg5 : Memref sig .tc .vmem S1x8x128 .f32) (harg5 : arg5.IsWhole)
    (arg6 : Memref sig .tc .vmem S1x8x128 .f32) (harg6 : arg6.IsWhole)
    (x0 : Vec F S128x512 .f32) (x1 : Vec F S4096x512 .f32) (x2 : Vec F S128x1 .i32) (x3 : Vec F S1x4096 .i32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (lossTile i x0 x1 x2 x3)
            ∗ owns (c : Thread nD τ) arg6 fullShare (cardTile x2 x3)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton, k0_part1_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz3 inb_S1x8x128_S1x8x128_0_0_0 y⟩),
      View.canon_unit_zero hz3]
    unfold lossTile
    sl_unfold_run_names
    simp only [View.readAt_eq_ld, View.ld_unit_zero (S := S128x1) hz2, View.ld_unit_zero (S := S1x4096) hz2,
      View.ld_unit_zero (S := S128x512) hz2, View.ld_unit_zero (S := S4096x512) hz2]
  iexists _; isplitr
  swap; · iexact H5
  ipureintro
  rw [View.read_writes_eq_canon _ _ _ (fun y => ⟨_, List.mem_singleton_self _, View.mem_set_unit_zero hz3 inb_S1x8x128_S1x8x128_0_0_0 y⟩),
    View.canon_unit_zero hz3]
  unfold cardTile
  sl_unfold_run_names
  simp only [View.readAt_eq_ld, View.ld_unit_zero (S := S128x1) hz2, View.ld_unit_zero (S := S1x4096) hz2]

/-! ## The input windows' buffers at a point -/

/-- The features' tile window holds its block at every point: it is fetched at every point, uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The window on all the features holds the whole array at every point, though fetched at the first only: the body
    leaves it in place and its block index never moves. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The tile's targets, as a column: fetched at every point. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- All the targets, as a row: fetched at the first point only, in place ever after. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, what the core owes, and the six windows' current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the four inputs' buffers hold their blocks, the two outputs' anything, so the body's run applies;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BLaunch.lean ====
/-
  The program's run, from the proof data of its one kernel region.

  The region's first two windows read ONE array (the features): the launch hands the region that array's buffer whole, and
  it is dealt to the two windows in halves of the full share; both windows only read, so each ends holding the contents
  it was handed. After the region the nine host lines run within the two result arrays and the buffers that bypass the
  region, while the four input windows' shares ride along; they write neither a result array nor an argument. So the
  program terminates with its result buffer at the quotient of the two result arrays' scaled sums and both arguments as
  launched.
-/
import proofs.«137512_j75926431859348_1_alg».proof.Proof.BData
import Idealize.ShloMosaic.Lib.Pipeline.Kit
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The pipeline's arrays at contents `A`: the features' array at its two windows' halves of the full share, the two
    reshaped targets and the two results whole. -/
theorem arrays_chain (c : Dev nD) (A : (w : Fin cfg0.W) → Buf (Elt F) ((cfg0.win w).arr.view.loc (c.tc : Thread nD τ))) :
    ((dats m 0 c).arrays A : sProp 𝕄)
      = iprop((((c.tc : Thread nD τ).loc main_arg0) ↦{fullShare.left} A 0) ∗ (((c.tc : Thread nD τ).loc main_arg0) ↦{fullShare.right} A 1)
          ∗ (((c.tc : Thread nD τ).loc main_v0) ↦{fullShare} A 2) ∗ (((c.tc : Thread nD τ).loc main_v1) ↦{fullShare} A 3)
          ∗ (((c.tc : Thread nD τ).loc main_v2_0) ↦{fullShare} A 4) ∗ (((c.tc : Thread nD τ).loc main_v2_1) ↦{fullShare} A 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- The distinct buffers behind the windows' arrays, each whole at contents `W`. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2_0) ↦{fullShare} W main_v2_0)
          ∗ (((c.tc : Thread nD τ).loc main_v2_1) ↦{fullShare} W main_v2_1)) := by
  unfold Pipeline.arrBufs
  exact bigSep_eq_bigSepL_of_eq [main_arg0, main_v0, main_v1, main_v2_0, main_v2_1] (by decide) (by decide) _

/-- No host line before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The launch hands the region each array's buffer whole; the features' one is split between its two windows. -/
theorem hsplit (c : Dev nD) :
    (Pipeline.arrBufs spec0 c (V m c) : sProp 𝕄) ⊢ (dats m 0 c).arrays ((dats m 0 c).arrAt · 0) := by
  rw [arrBufs_chain, arrays_chain]
  iintro ⟨H0, H2, H3, H4, H5⟩
  icases (pointsTo_share (q := fullShare) (q₁ := fullShare.left) (q₂ := fullShare.right) (PosShare.mem_left_op_right fullShare)).1 $$ H0 with ⟨Hl, Hr⟩
  isplitl [Hl]; · iexact Hl
  isplitl [Hr]; · iexact Hr
  isplitl [H2]; · iexact H2
  isplitl [H3]; · iexact H3
  isplitl [H4]; · iexact H4
  iexact H5

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, then the nine host lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The host lines after the region -/

/-- The buffers those lines may touch: the two result arrays and every buffer that bypasses the region. -/
abbrev tailSet : Finset (Ref sig .tc) := insert main_v2_0 (insert main_v2_1 (Pipeline.restRefs sig spec0))
abbrev tailDev : Finset (DevRef τ sig) := tailSet.map ⟨Proc.devRef (sig := sig) .tc, Proc.devRef_injective _⟩

/-- The buffer contents at the region's exit as far as those lines see them: the two result arrays as the region left
    them, every other buffer as the region found it. -/
def exitVal (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

theorem held_tail (c : Dev nD) (W : Valuation τ sig (Elt F)) :
    (StableHlo.held (c.tc : Thread nD τ) tailDev W : sProp 𝕄)
      = iprop((((c.tc : Thread nD τ).loc main_v2_0) ↦{fullShare} W (Proc.devRef .tc main_v2_0))
          ∗ (((c.tc : Thread nD τ).loc main_v2_1) ↦{fullShare} W (Proc.devRef .tc main_v2_1))
          ∗ Pipeline.unscopedRest spec0 c (fun b => W (Proc.devRef .tc b))) := by
  unfold StableHlo.held tailDev tailSet
  rw [bigSep_map, bigSep_insert (by decide), bigSep_insert (by decide)]
  rfl

/-- Each of those lines touches only the result arrays and the bypassing buffers. -/
theorem tail_sub : ∀ ops ∈ ([hostOps1] : List (List (HloOp τ sig (Elt F)))), ∀ op ∈ ops, op.bufs ⊆ tailDev := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl <;>
    simp only [StableHlo.nullary_bufs, StableHlo.binary_bufs] <;> decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The result arrays at the region's exit are what the proof data says; -/
theorem exitVal_v2_0 (c : Dev nD) : exitVal m c (Proc.devRef .tc main_v2_0) = (dats m 0 c).arrAt 4 cfg0.N := by
  unfold exitVal
  rw [Function.update_of_ne (StableHlo.devRef_ne_of_ne (by decide)), Function.update_self]
theorem exitVal_v2_1 (c : Dev nD) : exitVal m c (Proc.devRef .tc main_v2_1) = (dats m 0 c).arrAt 5 cfg0.N := by
  unfold exitVal
  rw [Function.update_self]
/-- every other buffer is as the region found it. -/
theorem exitVal_of_ne (c : Dev nD) (b : Ref sig .tc) (h0 : b ≠ main_v2_0) (h1 : b ≠ main_v2_1) :
    exitVal m c (Proc.devRef .tc b) = V m c b := by
  unfold exitVal
  rw [Function.update_of_ne (StableHlo.devRef_ne_of_ne h1), Function.update_of_ne (StableHlo.devRef_ne_of_ne h0)]

/-- No line after the region writes a result array. -/
theorem after_v2_0 (W : Valuation τ sig (Elt F)) :
    StableHlo.after (List.flatten [hostOps1]) W (Proc.devRef .tc main_v2_0) = W (Proc.devRef .tc main_v2_0) :=
  StableHlo.after_of_forall_not_mem (b := Proc.devRef .tc main_v2_0) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide)))
theorem after_v2_1 (W : Valuation τ sig (Elt F)) :
    StableHlo.after (List.flatten [hostOps1]) W (Proc.devRef .tc main_v2_1) = W (Proc.devRef .tc main_v2_1) :=
  StableHlo.after_of_forall_not_mem (b := Proc.devRef .tc main_v2_1) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide)))

/-- What the bypassing buffers hold after those lines. -/
abbrev restAfter (c : Dev nD) : sProp 𝕄 :=
  Pipeline.unscopedRest spec0 c (fun b => StableHlo.after (List.flatten [hostOps1]) (exitVal m c) (Proc.devRef .tc b))

/-- Six resources of which four ride along: given the continuation that wants all six back with a seventh, holding
    the four, and being handed the other two with the seventh under an update, the continuation runs. -/
theorem tail_cont {P0 P1 P2 P3 P4 P5 R B H Wp : sProp 𝕄} (Q : sProp 𝕄) (hH : H = iprop(P4 ∗ P5 ∗ R))
    (hwp : Wp = iprop(|={Set.univ}=> Q)) :
    iprop((iprop(iprop(P0 ∗ P1 ∗ P2 ∗ P3 ∗ P4 ∗ P5) ∗ R) -∗ Q) ∗ P0 ∗ P1 ∗ P2 ∗ P3) ⊢ iprop(iprop(B ∗ H) -∗ Wp) := by
  subst hH hwp
  iintro ⟨Hk, H0, H1, H2, H3⟩ ⟨Hbd, H4, H5, HR⟩
  imodintro
  iapply Hk
  isplitr [HR]
  · isplitl [H0]; · iexact H0
    isplitl [H1]; · iexact H1
    isplitl [H2]; · iexact H2
    isplitl [H3]; · iexact H3
    isplitl [H4]; · iexact H4
    iexact H5
  iexact HR

set_option backward.isDefEq.respectTransparency.types false in
/-- From the region's exit the nine host lines run within the two result arrays and the bypassing buffers; the four
    input windows' shares of their arrays ride along untouched. -/
theorem htail (c : Dev nD) (Q' : PUnit → sProp 𝕄) :
    iprop((iprop((dats m 0 c).arrays ((dats m 0 c).arrAt · cfg0.N) ∗ restAfter m c) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hW : (StableHlo.held (c.tc : Thread nD τ) tailDev (exitVal m c) : sProp 𝕄)
      = iprop((((c.tc : Thread nD τ).loc main_v2_0) ↦{fullShare} (dats m 0 c).arrAt 4 cfg0.N)
          ∗ (((c.tc : Thread nD τ).loc main_v2_1) ↦{fullShare} (dats m 0 c).arrAt 5 cfg0.N)
          ∗ Pipeline.unscopedRest spec0 c (V m c)) := by
    rw [held_tail, exitVal_v2_0, exitVal_v2_1]
    congr 2
    all_goals
      unfold Pipeline.unscopedRest
      exact bigSep_congr fun b hb => by
        rw [exitVal_of_ne m c b (fun e => (Finset.mem_sdiff.mp hb).2 (e ▸ (by decide : main_v2_0 ∈ Finset.univ.image (Pipeline.arrRef spec0))))
          (fun e => (Finset.mem_sdiff.mp hb).2 (e ▸ (by decide : main_v2_1 ∈ Finset.univ.image (Pipeline.arrRef spec0))))]
  have hW' : (StableHlo.held (c.tc : Thread nD τ) tailDev (StableHlo.after (List.flatten [hostOps1]) (exitVal m c)) : sProp 𝕄)
      = iprop((((c.tc : Thread nD τ).loc main_v2_0) ↦{fullShare} (dats m 0 c).arrAt 4 cfg0.N)
          ∗ (((c.tc : Thread nD τ).loc main_v2_1) ↦{fullShare} (dats m 0 c).arrAt 5 cfg0.N)
          ∗ restAfter m c) := by
    rw [held_tail, after_v2_0, after_v2_1, exitVal_v2_0, exitVal_v2_1]
  rw [arrays_chain]
  have hcont := tail_cont (P0 := (((c.tc : Thread nD τ).loc main_arg0) ↦{fullShare.left} (dats m 0 c).arrAt 0 cfg0.N))
    (P1 := (((c.tc : Thread nD τ).loc main_arg0) ↦{fullShare.right} (dats m 0 c).arrAt 1 cfg0.N))
    (P2 := (((c.tc : Thread nD τ).loc main_v0) ↦{fullShare} (dats m 0 c).arrAt 2 cfg0.N))
    (P3 := (((c.tc : Thread nD τ).loc main_v1) ↦{fullShare} (dats m 0 c).arrAt 3 cfg0.N))
    (B := boundary (c.tc : Thread nD τ))
    (Wp := wp frame (wpE (Pipeline.defs (fun q => (cfgs q).toPCfg (Val := Elt F)) defs₀) (Variants.lift Variants.none) (c.tc : Thread nD τ) none) Set.univ
      (Pipeline.chain []) Q')
    (Q' ⟨⟩) hW' (by rw [Pipeline.chain_nil, wp_pure])
  iintro ⟨Hk, Hbd, ⟨Hl, Hr, H2, H3, H4, H5⟩, HZ⟩
  iapply (Pipeline.wp_seqs_then (fun q => (cfgs q).toPCfg (Val := Elt F)) defs₀ Variants.none c tailDev [] [hostOps1] tail_sub tail_fresh (exitVal m c)) $$ [Hbd H4 H5 HZ]
  · isplitl [Hbd]; · iexact Hbd
    rw [hW]
    isplitl [H4]; · iexact H4
    isplitl [H5]; · iexact H5
    iexact HZ
  iapply hcont
  isplitl [Hk]; · iexact Hk
  isplitl [Hl]; · iexact Hl
  isplitl [Hr]; · iexact Hr
  isplitl [H2]; · iexact H2
  iexact H3

/-! ## The run -/

/-- No host line, before the region or after it, writes the targets. -/
theorem after_main_arg1 (c : Dev nD) :
    StableHlo.after (List.flatten [hostOps1]) (exitVal m c) (Proc.devRef .tc main_arg1) = m ((c.tc : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide))),
    exitVal_of_ne m c main_arg1 (by decide) (by decide)]
  exact StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The last host line's result: the quotient of the two result arrays' scaled sums. -/
theorem after_main_v7 (c : Dev nD) :
    StableHlo.after (List.flatten [hostOps1]) (exitVal m c) (Proc.devRef .tc main_v7)
      = tailVal ((dats m 0 c).arrAt 4 cfg0.N) ((dats m 0 c).arrAt 5 cfg0.N) := by
  rw [← exitVal_v2_0 m c, ← exitVal_v2_1 m c]
  simp only [hostOps1, List.flatten_cons, List.flatten_nil, List.append_nil]
  after_results
  rfl

set_option backward.isDefEq.respectTransparency.types false in
/-- From any memory with zero counters every weakly fair execution of @main terminates; the result buffer ends at the
    quotient of the two result arrays' scaled sums, the arrays being what the proof data computes; the two arguments end
    as launched. Given the body obligation at every point. -/
theorem run_main_of (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_v7) = tailVal ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest spec0 c (V m c))
    (Z' := fun c => restAfter m c)
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefs sig spec0, s.mem ((c.tc : Thread nD τ).loc b) = StableHlo.after (List.flatten [hostOps1]) (exitVal m c) (Proc.devRef .tc b))
    (hY := fun c s' => by
      iintro ⟨-, HU, HSI⟩
      unfold restAfter Pipeline.unscopedRest
      imodintro
      iapply (pointsTo_read_all (Pipeline.restRefs sig spec0) (fun b => (c.tc : Thread nD τ).loc b)
        (fun b => StableHlo.after (List.flatten [hostOps1]) (exitVal m c) (Proc.devRef .tc b)) s')
      isplitl [HU] <;> iassumption)
    (hQ := fun s h c => ⟨((h c).2.2 main_v7 (Pipeline.mem_restRefs_of main_v7 (by decide) (by decide))).trans (after_main_v7 m c),
      ((h c).1 0).trans (((dats m 0 c).arrAt_in 0 rfl _).trans ((A_eq m c 0).trans (V_main_arg0 m c))),
      ((h c).2.2 main_arg1 (Pipeline.mem_restRefs_of main_arg1 (by decide) (by decide))).trans (after_main_arg1 m c)⟩)

end Cert.Kernel.Hand

end
-- ==== Proof.Spec.lean ====
/-
  The loss both programs compute, as ONE function of the argument arrays over the extended reals.

  For features `x : 4096 × 512` and integer targets `tg : 4096`:
    sim i j   = Σ_d x i d · x j d                      (the Gram matrix)
    nrm i     = √(Σ_d x i d · x i d)                    (row norms)
    nmat i j  = nrm i · nrm j, replaced by the guard constant where it is 0
    ex i j    = exp ((sim i j / nmat i j) / τ)
    eye i j   = 1 if i = j else 0,   mask i j = 1 if tg i = tg j else 0
    act i j   = ex i j · (1 − eye i j)                  (the diagonal zeroed)
    neg i     = Σ_j act i j · (1 − mask i j)            (the row's negatives)
    nrmd i j  = act i j / (act i j + neg i) + eye i j
    pc i      = Σ_j mask i j                            (positives in the row)
    lm i j    = (− log (nrmd i j)) / pc i
    loss      = (Σ_i Σ_j lm i j · mask i j) / (Σ_i pc i)
  Every quotient is the instance's `Ideal.div`; the float literals stay the bit words both programs print.
  There is no "is NaN" guard here: on the extended reals `v ≠ v` never holds, so the guarded value is `v`.
-/
import Idealize.ShloMosaic.PureOps.Ideal

noncomputable section

namespace Cert.Spec

open Idealize.ShloMosaic

/-- The float literals of both programs, as the extended reals their bit words denote. -/
def cOne : EReal := Ideal.ofBits .f32 0x3F800000#32
def cGuard : EReal := Ideal.ofBits .f32 0x322BCC77#32
def cTau : EReal := Ideal.ofBits .f32 0x3DCCCCCD#32

variable (x : Fin 4096 → Fin 512 → EReal) (tg : Fin 4096 → BitVec 32)

/-- The Gram matrix. -/
def sim (i j : Fin 4096) : EReal := ∑ d : Fin 512, x i d * x j d
/-- A row's Euclidean norm. -/
def nrm (i : Fin 4096) : EReal := Ideal.sqrt (∑ d : Fin 512, x i d * x i d)
/-- The product of two rows' norms, the guard constant where that product is zero. -/
def nmat (i j : Fin 4096) : EReal := if nrm x i * nrm x j = 0 then cGuard else nrm x i * nrm x j
/-- The exponentiated cosine similarity at temperature τ. -/
def ex (i j : Fin 4096) : EReal := Ideal.exp (Ideal.div (Ideal.div (sim x i j) (nmat x i j)) cTau)
/-- The identity matrix and the same-class matrix, as 0 / 1. -/
def eye (i j : Fin 4096) : EReal := if i = j then 1 else 0
def mask (i j : Fin 4096) : EReal := if tg i = tg j then 1 else 0
/-- The similarities with the diagonal zeroed. -/
def act (i j : Fin 4096) : EReal := ex x i j * (cOne - eye i j)
/-- A row's sum over the other classes. -/
def neg (i : Fin 4096) : EReal := ∑ j : Fin 4096, act x i j * (cOne - mask tg i j)
/-- Each similarity over itself plus the row's negatives, the diagonal set to one. -/
def nrmd (i j : Fin 4096) : EReal := Ideal.div (act x i j) (act x i j + neg x tg i) + eye i j
/-- How many rows share row `i`'s class. -/
def pc (i : Fin 4096) : EReal := ∑ j : Fin 4096, mask tg i j
/-- The per-pair loss. -/
def lm (i j : Fin 4096) : EReal := Ideal.div (-(Ideal.log (nrmd x tg i j))) (pc tg i)
/-- A row's loss over its positives. -/
def rowLoss (i : Fin 4096) : EReal := ∑ j : Fin 4096, lm x tg i j * mask tg i j
/-- The contrastive loss: the positives' total loss over their number. -/
def loss : EReal := Ideal.div (∑ i : Fin 4096, rowLoss x tg i) (∑ i : Fin 4096, pc tg i)

/-! ## The rows by tiles of 128 -/

/-- Row `r` of tile `t`: the kernel's grid point `t` works on rows `128 t … 128 t + 127`. -/
def rowOf (t : Fin 32) (r : Fin 128) : Fin 4096 := ⟨128 * t.val + r.val, by have := t.isLt; have := r.isLt; omega⟩
/-- A tile's summed loss and summed count of positives. -/
def tileLoss (t : Fin 32) : EReal := ∑ r : Fin 128, rowLoss x tg (rowOf t r)
def tileCard (t : Fin 32) : EReal := ∑ r : Fin 128, pc tg (rowOf t r)

end Cert.Spec

end
-- ==== Proof.KPay.lean ====
/-
  The two 0 / 1 matrices of the kernel body, read at an index on a tile's rows.

  At grid point `t` the body forms, for the tile's rows `128 t … 128 t + 127` against all 4096 columns,
    • the same-class matrix: the tile's targets as a column and all targets as a row, both spread to 128 × 4096, compared
      for equality, the bit widened to a word and read as a signed integer: `1` where the classes agree, else `0`;
    • the identity matrix: the row numbers `128 t + r` as a column and the column numbers as a row, compared the same way.
  Both are the specification's `mask` and `eye` at row `128 t + r`. The only arithmetic is that `128 t + r < 4096` does not
  wrap at 32 bits, so equality of the words is equality of the numbers.
-/
import proofs.«137512_j75926431859348_1_alg».proof.Proof.KData
import proofs.«137512_j75926431859348_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx Cert.KernelIdeal Cert.KernelIdeal.Gen

/-! ## A column spread over the lanes -/

/-- A column `[a, 1]` broadcast along the lanes to `[a, b]` reads, at `(p, c)`, the column's entry `p`. -/
theorem colSpread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The zero / one word of a decided comparison, as an extended real -/

/-- A one-bit word widened to 32 bits and read as a signed integer is `1` or `0` as the bit says. -/
theorem bitWord_toReal (p : Bool) :
    (FloatOps.sitofp (F := Ideal) .f32 ((BitVec.ofBool p).setWidth 32) : EReal) = if p = true then 1 else 0 := by
  cases p
  · show (((0#32 : BitVec 32).toInt : ℝ) : EReal) = 0
    simp
  · show (((1#32 : BitVec 32).toInt : ℝ) : EReal) = 1
    have : (1#32 : BitVec 32).toInt = 1 := by decide
    rw [this]; simp

/-! ## The same-class matrix -/

/-- The tile's targets as a column against all targets as a row, compared for equality: `1` where row `r` of the tile and
    column `j` share their class, else `0`. -/
theorem pay4_apply (tg : Fin 4096 → BitVec 32) (t : Fin 32) (tr : Vec Ideal S128x1 .i32) (tc : Vec Ideal S1x4096 .i32)
    (htr : ∀ r : Fin 128, tr (ix2 r (0 : Fin 1)) = tg (Cert.Spec.rowOf t r)) (htc : ∀ j : Fin 4096, tc (ix2 (0 : Fin 1) j) = tg j)
    (r : Fin 128) (j : Fin 4096) : k0_pay4 (F := Ideal) tr tc (ix2 r j) = Cert.Spec.mask tg (Cert.Spec.rowOf t r) j := by
  unfold k0_pay4
  rw [sitofp_apply, extui_apply]
  show FloatOps.sitofp (F := Ideal) .f32 ((IntOp.cmpi .eq
      (broadcastTo S128x4096 (shapeCast S128x1 tr shapeCasts_S128x1_S128x1) broadcasts_S128x1_S128x4096 (ix2 r j))
      (broadcastTo S128x4096 (shapeCast S1x4096 tc shapeCasts_S1x4096_S1x4096) broadcasts_S1x4096_S128x4096 (ix2 r j))).setWidth 32) = _
  rw [colSpread_apply, broadcastTo_1b_ab_apply, shapeCast_self, shapeCast_self, htr, htc]
  show FloatOps.sitofp (F := Ideal) .f32 ((BitVec.ofBool (tg (Cert.Spec.rowOf t r) == tg j)).setWidth 32) = _
  rw [bitWord_toReal]
  unfold Cert.Spec.mask
  simp only [beq_iff_eq]

/-! ## The identity matrix -/

/-- The words compared for the identity matrix — row `128 n + r` of the whole array against column `j` — are equal exactly
    when the numbers are: below 4096 nothing wraps at 32 bits. -/
theorem rowWord_eq_iff (n : ℕ) (hn : n < 32) (r : Fin 128) (j : Fin 4096) :
    (IntOp.addi (Scalar.muli (BitVec.ofNat 32 n) 128#32) (BitVec.ofNat 32 (0 * 128 + r.val)) = BitVec.ofNat 32 (0 * 4096 + j.val))
      ↔ 128 * n + r.val = j.val := by
  have hr := r.isLt
  have hj := j.isLt
  rw [← BitVec.toNat_inj]
  show ((BitVec.ofNat 32 n * 128#32 + BitVec.ofNat 32 (0 * 128 + r.val)).toNat = _) ↔ _
  simp only [BitVec.toNat_add, BitVec.toNat_mul, BitVec.toNat_ofNat, Nat.zero_mul, Nat.zero_add]
  omega

/-- The tile's row numbers as a column against the column numbers as a row, compared for equality: `1` on the diagonal
    of the whole matrix, else `0`. -/
theorem pay5_apply (t : Fin 32) (i : grid0.Coords) (hi : (i 0).val = t.val) (r : Fin 128) (j : Fin 4096) :
    k0_pay5 (F := Ideal) i (ix2 r j) = Cert.Spec.eye (Cert.Spec.rowOf t r) j := by
  unfold k0_pay5
  dsimp only
  rw [sitofp_apply, extui_apply]
  show FloatOps.sitofp (F := Ideal) .f32 ((IntOp.cmpi .eq
      (broadcastTo S128x4096 (addi (broadcast S128x1 (Scalar.muli (BitVec.ofNat 32 (i 0).val) 128#32)) (iota .tc S128x1 32 [0] iota_S128x1_d0_w32))
        broadcasts_S128x1_S128x4096 (ix2 r j))
      (broadcastTo S128x4096 (iota .tc S1x4096 32 [1] iota_S1x4096_d1_w32) broadcasts_S1x4096_S128x4096 (ix2 r j))).setWidth 32) = _
  rw [colSpread_apply, broadcastTo_1b_ab_apply]
  show FloatOps.sitofp (F := Ideal) .f32 ((BitVec.ofBool
      (IntOp.addi (Scalar.muli (BitVec.ofNat 32 (i 0).val) 128#32) (BitVec.ofNat 32 (0 * 128 + r.val)) == BitVec.ofNat 32 (0 * 4096 + j.val))).setWidth 32) = _
  rw [bitWord_toReal, hi]
  unfold Cert.Spec.eye
  simp only [beq_iff_eq, rowWord_eq_iff t.val t.isLt r j, Fin.ext_iff, Cert.Spec.rowOf]

end Cert.KernelIdeal.Hand

end
-- ==== Proof.KPay6.lean ====
/-
  The exponentiated cosine similarities of the kernel body, read at an index on a tile's rows.

  At grid point `t` the body forms, for the tile's rows `q` (128 × 512) against all rows `k` (4096 × 512):
    the Gram block `q kᵀ` (a matrix product contracted over the 512 features, from a zero accumulator; the narrowing of
    the operands is the identity on the extended reals), the rows' norms `√(Σ_d q²)` as a column and `√(Σ_d k²)` turned
    into a row, their product with the guard constant where it is zero, and `exp ((Gram / guarded product) / τ)`.
  Read at `(r, j)` this is the specification's `ex` at row `128 t + r` and column `j`.
-/
import proofs.«137512_j75926431859348_1_alg».proof.Proof.KPay
import Idealize.ShloMosaic.PureOps.Ideal.Laws

set_option maxRecDepth 16384

noncomputable section

namespace Cert.KernelIdeal.Hand

open Idealize.ShloMosaic Idealize.ShloMosaic.ValueIdx Cert.KernelIdeal Cert.KernelIdeal.Gen

namespace Pay6

/-- A vector `[a]` cast to the column `[a, 1]` reads, at `(i, u)`, the vector's entry `i`. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum `[a, b] → [a]` from the zero word reads, at row `i`, the sum of that row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ d : Fin b, src (ix2 i d) := by
  refine (Ideal.multiReduction_add_single src 0x00000000#32 h hφ hacc (ix1 i)).trans ?_
  show (∑ d : Fin b, src (h.lift (ix1 i) d)) = _
  refine Finset.sum_congr rfl fun d _ => congrArg src (funext fun ax => Fin.ext ?_)
  match ax with
  | ⟨0, _⟩ => rfl
  | ⟨1, _⟩ => rfl

/-- The matrix product's left index keeps the output row … -/
theorem gram_lhs_0 (i : S128x4096.Idx) (c : dot_S128x512_S4096x512_S128x4096_1_1_0_0_n_n.contr.Idx) :
    (dot_S128x512_S4096x512_S128x4096_1_1_0_0_n_n.lhsIdx i c 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
/-- … and runs over the contracted feature on its second axis; -/
theorem gram_lhs_1 (i : S128x4096.Idx) (c : dot_S128x512_S4096x512_S128x4096_1_1_0_0_n_n.contr.Idx) :
    (dot_S128x512_S4096x512_S128x4096_1_1_0_0_n_n.lhsIdx i c 1).val = (c ⟨0, by decide⟩).val :=
  dot_S128x512_S4096x512_S128x4096_1_1_0_0_n_n.lhsIdx_val_of_single rfl i c
/-- the right index takes the output column as ITS row … -/
theorem gram_rhs_0 (i : S128x4096.Idx) (c : dot_S128x512_S4096x512_S128x4096_1_1_0_0_n_n.contr.Idx) :
    (dot_S128x512_S4096x512_S128x4096_1_1_0_0_n_n.rhsIdx i c 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
/-- … and the contracted feature on its second axis too: both operands are contracted along their features. -/
theorem gram_rhs_1 (i : S128x4096.Idx) (c : dot_S128x512_S4096x512_S128x4096_1_1_0_0_n_n.contr.Idx) :
    (dot_S128x512_S4096x512_S128x4096_1_1_0_0_n_n.rhsIdx i c 1).val = (c ⟨0, by decide⟩).val :=
  dot_S128x512_S4096x512_S128x4096_1_1_0_0_n_n.rhsIdx_val_of_single rfl i c

/-- The Gram entry: the product of the tile's rows with all rows, contracted over the 512 features, from a zero
    accumulator; the narrowing of the operands is the identity on the extended reals. -/
theorem gram_apply (q : FVec Ideal S128x512 .f32) (k : FVec Ideal S4096x512 .f32) (r : Fin 128) (j : Fin 4096) :
    matmul dot_S128x512_S4096x512_S128x4096_1_1_0_0_n_n none (truncf .bf16 q bitsLt_bf16_f32) (truncf .bf16 k bitsLt_bf16_f32)
        (constant (F := Ideal) S128x4096 .f32 0x00000000#32) (ix2 r j)
      = ∑ d : Fin 512, q (ix2 r d) * k (ix2 j d) := by
  simp only [matmul]
  rw [Ideal.matmul_constant_zero_apply, ← Equiv.sum_comp (contrEquiv1 dot_S128x512_S4096x512_S128x4096_1_1_0_0_n_n 512 rfl rfl).symm]
  refine Finset.sum_congr rfl fun d _ => ?_
  have hd := contrEquiv1_symm_val dot_S128x512_S4096x512_S128x4096_1_1_0_0_n_n 512 rfl rfl d
  have el : dot_S128x512_S4096x512_S128x4096_1_1_0_0_n_n.lhsIdx (ix2 r j) ((contrEquiv1 dot_S128x512_S4096x512_S128x4096_1_1_0_0_n_n 512 rfl rfl).symm d) = ix2 r d := funext fun a => Fin.ext (by
    match a with
    | ⟨0, _⟩ => exact gram_lhs_0 _ _
    | ⟨1, _⟩ => exact (gram_lhs_1 _ _).trans hd)
  have er : dot_S128x512_S4096x512_S128x4096_1_1_0_0_n_n.rhsIdx (ix2 r j) ((contrEquiv1 dot_S128x512_S4096x512_S128x4096_1_1_0_0_n_n 512 rfl rfl).symm d) = ix2 j d := funext fun a => Fin.ext (by
    match a with
    | ⟨0, _⟩ => exact gram_rhs_0 _ _
    | ⟨1, _⟩ => exact (gram_rhs_1 _ _).trans hd)
  rw [el, er]
  rfl

/-- The tile rows' norms, a column spread over the lanes: at `(r, j)` the root of row `r`'s summed squares. -/
theorem normRow_apply (q : FVec Ideal S128x512 .f32) (r : Fin 128) (j : Fin 4096) :
    broadcastTo S128x4096
        (sqrt (shapeCast S128x1 (multiReduction .add [1] S128 (mulf q q) 0x00000000#32 reduces_S128x512_S128 (.inl rfl) rfl) shapeCasts_S128_S128x1))
        broadcasts_S128x1_S128x4096 (ix2 r j)
      = Ideal.sqrt (∑ d : Fin 512, q (ix2 r d) * q (ix2 r d)) := by
  rw [colSpread_apply]
  show Ideal.sqrt (shapeCast S128x1 (multiReduction .add [1] S128 (mulf q q) 0x00000000#32 reduces_S128x512_S128 (.inl rfl) rfl)
    shapeCasts_S128_S128x1 (ix2 r (0 : Fin 1))) = _
  rw [colCast_apply]
  refine congrArg Ideal.sqrt ?_
  exact rowSum_apply (mulf q q) reduces_S128x512_S128 (.inl rfl) rfl r

/-- All rows' norms, a column turned into a row and spread over the sublanes: at `(r, j)` the root of row `j`'s summed
    squares. -/
theorem normCol_apply (k : FVec Ideal S4096x512 .f32) (r : Fin 128) (j : Fin 4096) :
    broadcastTo S128x4096
        (transpose S1x4096 [1, 0]
          (sqrt (shapeCast S4096x1 (multiReduction .add [1] S4096 (mulf k k) 0x00000000#32 reduces_S4096x512_S4096 (.inl rfl) rfl) shapeCasts_S4096_S4096x1))
          transposes_S4096x1_p1_0_S1x4096)
        broadcasts_S1x4096_S128x4096 (ix2 r j)
      = Ideal.sqrt (∑ d : Fin 512, k (ix2 j d) * k (ix2 j d)) := by
  rw [broadcastTo_1b_ab_apply, transpose_ix2_apply]
  show Ideal.sqrt (shapeCast S4096x1 (multiReduction .add [1] S4096 (mulf k k) 0x00000000#32 reduces_S4096x512_S4096 (.inl rfl) rfl)
    shapeCasts_S4096_S4096x1 (ix2 j (0 : Fin 1))) = _
  rw [colCast_apply]
  refine congrArg Ideal.sqrt ?_
  exact rowSum_apply (mulf k k) reduces_S4096x512_S4096 (.inl rfl) rfl j

/-- The guard: a select on "equal to the zero word" is the `if` on "is zero". -/
theorem guard_apply (p g : EReal) :
    Scalar.select (FloatOps.cmpf (F := Ideal) (φ := .f32) .oeq p (Scalar.ofBits (F := Ideal) .f32 0x00000000#32)) g p
      = if p = 0 then g else p := by
  show Scalar.select (Ideal.cmp .oeq p (Ideal.ofBits .f32 0x00000000#32)) g p = _
  rw [Ideal.ofBits_zero_f32]
  show Scalar.select (BitVec.ofBool (decide (p = 0))) g p = _
  by_cases h : p = 0
  · rw [if_pos h, decide_eq_true h]; exact select_one _ _
  · rw [if_neg h, decide_eq_false h]; exact select_zero _ _

/-- An exponential at an index is the exponential of the element. -/
theorem exp_apply {s : Shape} {φ : FTy} (a : FVec Ideal s φ) (i : s.Idx) : exp a i = Ideal.exp (a i) := rfl

end Pay6

/-- The exponentiated cosine similarity of the tile's row `r` and row `j`: the Gram entry over the guarded product of the
    two norms, over the temperature, exponentiated. -/
theorem pay6_apply (x : Fin 4096 → Fin 512 → EReal) (t : Fin 32) (q : Vec Ideal S128x512 .f32) (k : Vec Ideal S4096x512 .f32)
    (hq : ∀ (r : Fin 128) (d : Fin 512), q (ix2 r d) = x (Cert.Spec.rowOf t r) d) (hk : ∀ (j : Fin 4096) (d : Fin 512), k (ix2 j d) = x j d)
    (r : Fin 128) (j : Fin 4096) : k0_pay6 (F := Ideal) q k (ix2 r j) = Cert.Spec.ex x (Cert.Spec.rowOf t r) j := by
  unfold k0_pay6
  simp only [Pay6.exp_apply, divf_apply, select_apply, cmpf_apply, mulf_apply, broadcast_apply]
  rw [Pay6.gram_apply, Pay6.normRow_apply, Pay6.normCol_apply, Pay6.guard_apply]
  simp only [hq, hk]
  rfl

end Cert.KernelIdeal.Hand

end
-- ==== Proof.KTile.lean ====
/-
  The two values the kernel body stores are the specification's tile sums.

  For ANY three 128 × 4096 matrices that are, on the rows of tile `t`, the same-class matrix `mask`, the identity
  `eye` and the exponentiated similarities `ex`, the stored loss tile is `tileLoss x tg t` at every one of its 8 × 128
  entries and the stored count tile is `tileCard tg t`. Entry by entry the body computes what the specification
  writes: the similarities with the diagonal zeroed, `act = ex · (1 − eye)`; the row's negatives,
  `neg = Σ_j act · (1 − mask)`, as a column laid back along the lanes; `nrmd = act / (act + neg) + eye`; the
  positives' count `pc = Σ_j mask` likewise; `lm = (0 − log nrmd) / pc`, where `0 − v = −v`; a guard that replaces
  `lm` by zero where `lm ≠ lm`, which never holds on the extended reals; then `Σ_j lm · mask` over the row and the sum
  of those over the tile's 128 rows, cast to one entry and laid over the 8 × 128 tile. The only steps that are not
  pointwise are the lane sums, the column casts and the broadcasts, each read here at explicit coordinates.
-/
import proofs.«137512_j75926431859348_1_alg».proof.Proof.KData
import proofs.«137512_j75926431859348_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ## The shape operations of the body, read at coordinates -/

section Layout
variable {α : Type}

/-- A lane sum of a 128 × 4096 matrix, read at row r, is the sum of the row. -/
theorem rowSum_apply (v : FVec Ideal S128x4096 .f32) (h : S128x4096.Reduces [1] S128) (hφ : FKind.Formats .f32)
    (hacc : (0x00000000#32 : BitVec 32) = FKind.add.neutral .f32 hφ) (r : Fin 128) :
    multiReduction .add [1] S128 v 0x00000000#32 h hφ hacc (ix1 r) = ∑ j : Fin 4096, v (ix2 r j) := by
  refine (Ideal.multiReduction_add_single v 0x00000000#32 h hφ hacc (ix1 r)).trans ?_
  show ∑ k : Fin 4096, v (h.lift (ix1 r) k) = _
  refine Finset.sum_congr rfl fun k _ => congrArg v ?_
  funext a
  match a with
  | ⟨0, _⟩ => rfl
  | ⟨1, _⟩ => rfl

/-- A sublane sum of a 128 × 1 column, read at its one index, is the sum of the column. -/
theorem colSum_apply (c : FVec Ideal S128x1 .f32) (h : S128x1.Reduces [0] S1) (hφ : FKind.Formats .f32)
    (hacc : (0x00000000#32 : BitVec 32) = FKind.add.neutral .f32 hφ) (u : Fin 1) :
    multiReduction .add [0] S1 c 0x00000000#32 h hφ hacc (ix1 u) = ∑ r : Fin 128, c (ix2 r (0 : Fin 1)) := by
  refine (Ideal.multiReduction_add_single c 0x00000000#32 h hφ hacc (ix1 u)).trans ?_
  show ∑ k : Fin 128, c (h.lift (ix1 u) k) = _
  refine Finset.sum_congr rfl fun k _ => congrArg c ?_
  funext a
  match a with
  | ⟨0, _⟩ => rfl
  | ⟨1, _⟩ => exact Fin.ext (by show u.val = 0; omega)

/-- A vector of 128 entries cast to a 128 × 1 column reads, at (r, 0), its entry r. -/
theorem col_apply (w : S128.Idx → α) (h : S128.ShapeCasts S128x1) (r : Fin 128) (u : Fin 1) :
    shapeCast S128x1 w h (ix2 r u) = w (ix1 r) :=
  shapeCast_apply w h _ _ (by
    have hu : u.val = 0 := by omega
    rw [Shape.rowMajor_val_two, Shape.rowMajor_val_one]
    show r.val = r.val * 1 + u.val
    rw [hu, Nat.mul_one, Nat.add_zero])

/-- A 128 × 1 column broadcast along 4096 lanes reads, at (r, j), the column's entry r. -/
theorem bcastCol_apply (c : S128x1.Idx → α) (h : S128x1.Broadcasts S128x4096) (r : Fin 128) (j : Fin 4096) :
    broadcastTo S128x4096 c h (ix2 r j) = c (ix2 r (0 : Fin 1)) := by
  refine broadcastTo_apply c h (ix2 r j) (ix2 r (0 : Fin 1)) fun ax => ?_
  match ax with
  | ⟨0, _⟩ => rfl
  | ⟨1, _⟩ => rfl

/-- The one entry of a vector of length one, through the casts to 1 × 1 and 1 × 1 × 1 and the broadcast over an
    8 × 128 tile: every entry of the tile is that entry. -/
theorem tile_apply (w : S1.Idx → α) (h1 : S1.ShapeCasts S1x1) (h2 : S1x1.ShapeCasts S1x1x1)
    (hb : S1x1x1.Broadcasts S1x8x128) (y : S1x8x128.Idx) :
    broadcastTo S1x8x128 (shapeCast S1x1x1 (shapeCast S1x1 w h1) h2) hb y = w (ix1 (0 : Fin 1)) := by
  refine (broadcastTo_apply _ hb y (ix3 (0 : Fin 1) (0 : Fin 1) (0 : Fin 1)) fun ax => ?_).trans ?_
  · match ax with
    | ⟨0, _⟩ => rfl
    | ⟨1, _⟩ => rfl
    | ⟨2, _⟩ => rfl
  refine (shapeCast_apply _ h2 _ (ix2 (0 : Fin 1) (0 : Fin 1)) (by
    rw [Shape.rowMajor_val_three, Shape.rowMajor_val_two]; rfl)).trans ?_
  exact shapeCast_apply w h1 _ (ix1 (0 : Fin 1)) (by
    rw [Shape.rowMajor_val_two, Shape.rowMajor_val_one]; rfl)

end Layout

/-! ## The count of positives -/

/-- The column of row sums of the mask, read at (r, 0): the number of positives of row r of the tile. -/
theorem pay1_apply (tg : Fin 4096 → BitVec 32) (t : Fin 32) (v30 : FVec Ideal S128x4096 .f32)
    (h30 : ∀ (r : Fin 128) (j : Fin 4096), v30 (ix2 r j) = mask tg (rowOf t r) j) (r : Fin 128) (u : Fin 1) :
    k0_pay1 (F := Ideal) v30 (ix2 r u) = pc tg (rowOf t r) := by
  unfold k0_pay1
  refine (col_apply _ _ r u).trans ?_
  refine (rowSum_apply v30 _ _ _ r).trans ?_
  unfold pc
  exact Finset.sum_congr rfl fun j _ => h30 r j

theorem pay3_of (tg : Fin 4096 → BitVec 32) (t : Fin 32) (v30 : FVec Ideal S128x4096 .f32)
    (h30 : ∀ (r : Fin 128) (j : Fin 4096), v30 (ix2 r j) = mask tg (rowOf t r) j) (y : S1x8x128.Idx) :
    k0_pay3 (F := Ideal) v30 y = tileCard tg t := by
  unfold k0_pay3
  refine (tile_apply _ _ _ _ y).trans ?_
  refine (colSum_apply _ _ _ _ (0 : Fin 1)).trans ?_
  unfold tileCard
  exact Finset.sum_congr rfl fun r _ => pay1_apply tg t v30 h30 r (0 : Fin 1)

/-! ## The loss -/

/-- On the extended reals no value differs from itself. -/
theorem cmp_one_self (x : EReal) : Ideal.cmp .one x x = 0#1 := by
  unfold Ideal.cmp
  simp

/-- So the guard "where v ≠ v put z" leaves v as it is. -/
theorem guard_apply {s : Shape} (v z : FVec Ideal s .f32) (i : s.Idx) :
    select (cmpf .one v v) z v i = v i := by
  rw [select_apply, cmpf_apply]
  show Scalar.select (Ideal.cmp .one (v i) (v i)) (z i) (v i) = v i
  rw [cmp_one_self, select_zero]

theorem pay2_of (x : Fin 4096 → Fin 512 → EReal) (tg : Fin 4096 → BitVec 32) (t : Fin 32) (v30 v40 v43 : FVec Ideal S128x4096 .f32)
    (h30 : ∀ (r : Fin 128) (j : Fin 4096), v30 (ix2 r j) = mask tg (rowOf t r) j) (h40 : ∀ (r : Fin 128) (j : Fin 4096), v40 (ix2 r j) = eye (rowOf t r) j)
    (h43 : ∀ (r : Fin 128) (j : Fin 4096), v43 (ix2 r j) = ex x (rowOf t r) j) (y : S1x8x128.Idx) :
    k0_pay2 (F := Ideal) v30 v40 v43 y = tileLoss x tg t := by
  -- the similarities with the diagonal zeroed, at (r, j)
  have hact : ∀ (r : Fin 128) (j : Fin 4096),
      mulf v43 (subf (broadcast S128x4096 (Scalar.ofBits (F := Ideal) .f32 0x3F800000#32)) v40) (ix2 r j) = act x (rowOf t r) j := by
    intro r j
    refine (mulf_apply _ _ _).trans ?_
    unfold act
    refine congrArg₂ (· * ·) (h43 r j) ?_
    refine (subf_apply _ _ _).trans ?_
    exact congrArg₂ (· - ·) rfl (h40 r j)
  unfold k0_pay2
  refine (tile_apply _ _ _ _ y).trans ?_
  refine (colSum_apply _ _ _ _ (0 : Fin 1)).trans ?_
  unfold tileLoss
  refine Finset.sum_congr rfl fun r _ => ?_
  refine (col_apply _ _ r (0 : Fin 1)).trans ?_
  refine (rowSum_apply _ _ _ _ r).trans ?_
  unfold rowLoss
  refine Finset.sum_congr rfl fun j _ => ?_
  refine (mulf_apply _ _ _).trans ?_
  refine congrArg₂ (· * ·) ?_ (h30 r j)
  refine (guard_apply _ _ _).trans ?_
  refine (divf_apply _ _ _).trans ?_
  unfold lm
  refine congrArg₂ Ideal.div ?_ ((bcastCol_apply _ _ r j).trans (pay1_apply tg t v30 h30 r (0 : Fin 1)))
  -- the kernel's 0 − log is the specification's −log
  refine (subf_apply _ _ _).trans ?_
  refine (congrArg₂ (· - ·) Ideal.ofBits_zero_f32 rfl).trans ?_
  refine (zero_sub _).trans ?_
  refine congrArg (fun z : EReal => -Ideal.log z) ?_
  refine (addf_apply _ _ _).trans ?_
  unfold nrmd
  refine congrArg₂ (· + ·) ?_ (h40 r j)
  refine (divf_apply _ _ _).trans ?_
  refine congrArg₂ Ideal.div (hact r j) ?_
  refine (addf_apply _ _ _).trans ?_
  refine congrArg₂ (· + ·) (hact r j) ?_
  -- the row's negatives
  refine (bcastCol_apply _ _ r j).trans ?_
  refine (col_apply _ _ r (0 : Fin 1)).trans ?_
  refine (rowSum_apply _ _ _ _ r).trans ?_
  unfold neg
  refine Finset.sum_congr rfl fun j' _ => ?_
  refine (mulf_apply _ _ _).trans ?_
  refine congrArg₂ (· * ·) (hact r j') ?_
  refine (subf_apply _ _ _).trans ?_
  exact congrArg₂ (· - ·) rfl (h30 r j')

end Cert.KernelIdeal.Hand

end
-- ==== Proof.KTileEq.lean ====
/-
  The two tiles the body stores at a grid point, as functions of the four blocks it reads, are the specification's
  tile sums: the three intermediate matrices are the same-class matrix, the identity and the exponentiated
  similarities on the tile's rows, so the stored payloads are `tileLoss` and `tileCard` at every entry.
-/
import proofs.«137512_j75926431859348_1_alg».proof.Proof.KPay
import proofs.«137512_j75926431859348_1_alg».proof.Proof.KPay6
import proofs.«137512_j75926431859348_1_alg».proof.Proof.KTile
import Idealize.ShloMosaic.Lib.ValueIdx

noncomputable section

namespace Cert.KernelIdeal.Hand

open Idealize.ShloMosaic Idealize.ShloMosaic.ValueIdx Cert.KernelIdeal Cert.KernelIdeal.Gen Cert.Spec

theorem lossTile_eq (x : Fin 4096 → Fin 512 → EReal) (tg : Fin 4096 → BitVec 32) (t : Fin 32) (i : grid0.Coords)
    (hi : (i 0).val = t.val) (q : Vec Ideal S128x512 .f32) (k : Vec Ideal S4096x512 .f32)
    (tr : Vec Ideal S128x1 .i32) (tc : Vec Ideal S1x4096 .i32)
    (hq : ∀ (r : Fin 128) (d : Fin 512), q (ix2 r d) = x (rowOf t r) d)
    (hk : ∀ (j : Fin 4096) (d : Fin 512), k (ix2 j d) = x j d)
    (htr : ∀ r : Fin 128, tr (ix2 r (0 : Fin 1)) = tg (rowOf t r))
    (htc : ∀ j : Fin 4096, tc (ix2 (0 : Fin 1) j) = tg j) (y : S1x8x128.Idx) :
    lossTile (F := Ideal) i q k tr tc y = tileLoss x tg t := by
  unfold lossTile
  exact pay2_of x tg t _ _ _ (pay4_apply tg t tr tc htr htc) (pay5_apply t i hi) (pay6_apply x t q k hq hk) y

theorem cardTile_eq (tg : Fin 4096 → BitVec 32) (t : Fin 32) (tr : Vec Ideal S128x1 .i32) (tc : Vec Ideal S1x4096 .i32)
    (htr : ∀ r : Fin 128, tr (ix2 r (0 : Fin 1)) = tg (rowOf t r))
    (htc : ∀ j : Fin 4096, tc (ix2 (0 : Fin 1) j) = tg j) (y : S1x8x128.Idx) :
    cardTile (F := Ideal) tr tc y = tileCard tg t := by
  unfold cardTile
  exact pay3_of tg t _ (pay4_apply tg t tr tc htr htc) y

end Cert.KernelIdeal.Hand

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.KValue.lean ====
/-
  What the two result arrays hold after all 32 grid points, and what the host lines after the region make of them.

  Grid point `t` reads rows `128 t … 128 t + 127` of the features (and, through a second window, all of them), the same
  rows of the targets as a column and all targets as a row, and writes one 8 × 128 tile into row `t` of each of the two
  32 × 8 × 128 result arrays: every entry of the first tile is the tile's summed loss, every entry of the second the tile's
  summed count of positives. The 32 tiles cover each array, so each array is a function of its first coordinate only.
  Summing such an array over all 32 · 8 · 128 entries gives 1024 copies of the sum over the 32 tiles, and dividing by 1024
  gives that sum back — for every extended real, since multiplication there is associative and commutative and
  1024 · (1 / 1024) = 1. The sum over the tiles of the sums over each tile's 128 rows is the sum over all 4096 rows.
  So the quotient the host forms is the specification's loss.
-/
import proofs.«137512_j75926431859348_1_alg».proof.Proof.KData
import proofs.«137512_j75926431859348_1_alg».proof.Proof.Spec
import proofs.«137512_j75926431859348_1_alg».proof.Proof.LibSums
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Mathlib.Data.EReal.Operations

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx Cert.Spec

/-! ## Sums by tiles -/

/-- A sum over the 4096 rows is the sum over the 32 tiles of the sums over each tile's 128 rows. -/
theorem sum_tiles {M : Type*} [AddCommMonoid M] (f : Fin 4096 → M) :
    ∑ t : Fin 32, ∑ r : Fin 128, f (rowOf t r) = ∑ i : Fin 4096, f i := by
  refine Eq.trans ?_ (Cert.LibSums.sum_blocks 32 128 f)
  refine Finset.sum_congr rfl fun t _ => Finset.sum_congr rfl fun r _ => congrArg f (Fin.ext ?_)
  show 128 * t.val + r.val = t.val * 128 + r.val
  omega

/-- The tiles' summed losses add up to the rows' losses. -/
theorem sum_tileLoss (x : Fin 4096 → Fin 512 → EReal) (tg : Fin 4096 → BitVec 32) :
    ∑ t : Fin 32, tileLoss x tg t = ∑ i : Fin 4096, rowLoss x tg i :=
  sum_tiles (fun i => rowLoss x tg i)

/-- The tiles' summed counts of positives add up to the rows' counts. -/
theorem sum_tileCard (tg : Fin 4096 → BitVec 32) :
    ∑ t : Fin 32, tileCard tg t = ∑ i : Fin 4096, pc tg i :=
  sum_tiles (fun i => pc tg i)

/-! ## A rank-3 index set as a product -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An array of 32 × 8 × 128 entries that depends on the first coordinate only sums to 1024 copies of the sum over
    that coordinate. -/
theorem sum_rows_const {M : Type*} [AddCommMonoid M] (f : Fin 32 → M) :
    ∑ y : (⟨3, ![32, 8, 128]⟩ : Shape).Idx, f (y 0) = 1024 • ∑ t : Fin 32, f t := by
  rw [sum_idx3 (fun y : (⟨3, ![32, 8, 128]⟩ : Shape).Idx => f (y 0)), Finset.smul_sum]
  refine Finset.sum_congr rfl fun t _ => ?_
  show ∑ _b : Fin 8, ∑ _c : Fin 128, f t = 1024 • f t
  simp only [Finset.sum_const, Finset.card_univ, Fintype.card_fin, smul_smul]
  rfl

/-! ## The divisor -/

/-- The word `0x44800000` is the float 1024. -/
theorem ofBits_1024 : Ideal.ofBits .f32 0x44800000#32 = ((1024 : ℝ) : EReal) := by
  simp [Ideal.ofBits, Ideal.ieee, -EReal.coe_mul]; norm_num

/-- 1024 copies of any extended real, divided by 1024, are that extended real: multiplication on the extended reals
    is associative and commutative, and 1024 · (1 / 1024) = 1. -/
theorem div_nsmul_1024 (Y : EReal) : Ideal.div (1024 • Y) ((1024 : ℝ) : EReal) = Y := by
  rw [Ideal.div_coe (by norm_num : (1024 : ℝ) ≠ 0), EReal.nsmul_eq_mul, mul_comm _ Y, mul_assoc]
  have h : ((1024 : ℕ) : EReal) * (((1 / 1024 : ℝ)) : EReal) = 1 := by
    rw [show ((1024 : ℕ) : EReal) = ((1024 : ℝ) : EReal) by norm_cast, ← EReal.coe_mul]
    norm_num
  rw [h, mul_one]

/-! ## The host lines after the region -/

/-- The host's sum of a whole 32 × 8 × 128 array from the zero word is the sum of its entries. -/
theorem reduce_all (X : Vec Ideal S32x8x128 .f32) :
    Host.reduceAdd (F := Ideal) X (constant (F := Ideal) S_ .f32 0x00000000#32) reducesTo_S32x8x128_S_d0_1_2 h_S_ ix0
      = ∑ y : S32x8x128.Idx, X y := by
  rw [hostReduceAdd_apply, Ideal.hostReduceAdd_total reducesTo_S32x8x128_S_d0_1_2 (fun b => b.elim0), constant_apply,
    Ideal.ofBits_zero_f32, zero_add]

/-- An array that depends on its first coordinate only, summed over all entries and divided by 1024, is the sum over
    that coordinate. -/
theorem mean_rows (X : Vec Ideal S32x8x128 .f32) (f : Fin 32 → EReal) (hX : ∀ y : S32x8x128.Idx, X y = f (y 0)) :
    Host.divf (F := Ideal) (Host.reduceAdd (F := Ideal) X (constant (F := Ideal) S_ .f32 0x00000000#32) reducesTo_S32x8x128_S_d0_1_2 h_S_)
        (constant (F := Ideal) S_ .f32 0x44800000#32) ix0
      = ∑ t : Fin 32, f t := by
  rw [hostDivf_apply, reduce_all, constant_apply, ofBits_1024, Finset.sum_congr rfl fun y _ => hX y]
  exact (congrArg (fun s => Ideal.div s ((1024 : ℝ) : EReal)) (sum_rows_const f)).trans (div_nsmul_1024 _)

/-- What the host lines make of two arrays that depend on their first coordinate only: the quotient of the two sums
    over that coordinate. -/
theorem tailVal_rows (X4 X5 : Vec Ideal S32x8x128 .f32) (f4 f5 : Fin 32 → EReal)
    (h4 : ∀ y : S32x8x128.Idx, X4 y = f4 (y 0)) (h5 : ∀ y : S32x8x128.Idx, X5 y = f5 (y 0)) :
    tailVal (F := Ideal) X4 X5 ix0 = Ideal.div (∑ t : Fin 32, f4 t) (∑ t : Fin 32, f5 t) := by
  unfold tailVal
  rw [hostDivf_apply, mean_rows X4 f4 h4, mean_rows X5 f5 h5]

/-! ## The arrays as the region finds them -/

section Arrays

variable {F : FTy → Type} [FloatOps F]
variable (m : (ℓ : Loc nD τ sig) → Buf (Elt F) ℓ)

/-- No host line before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The targets as a column: the first reshape of the targets. -/
theorem V_main_v0 (c : Dev nD) :
    (V m c main_v0 : S4096x1.Idx → BitVec 32)
      = shapeCast S4096x1 (m ((c : Thread nD τ).loc main_arg1) : S4096.Idx → BitVec 32) shapeCasts_S4096_S4096x1 := by
  dsimp only [V, V0]
  simp only [hostOps0, List.flatten_cons, List.flatten_nil, List.append_nil]
  after_results
  rfl

/-- The targets as a row: the second reshape of the targets. -/
theorem V_main_v1 (c : Dev nD) :
    (V m c main_v1 : S1x4096.Idx → BitVec 32)
      = shapeCast S1x4096 (m ((c : Thread nD τ).loc main_arg1) : S4096.Idx → BitVec 32) shapeCasts_S4096_S1x4096 := by
  dsimp only [V, V0]
  simp only [hostOps0, List.flatten_cons, List.flatten_nil, List.append_nil]
  after_results
  rfl

/-- Entry `i` of the column of targets is target `i`. -/
theorem V_main_v0_apply (c : Dev nD) (i : Fin 4096) :
    (V m c main_v0 : S4096x1.Idx → BitVec 32) (ix2 i (0 : Fin 1)) = (m ((c : Thread nD τ).loc main_arg1) : S4096.Idx → BitVec 32) (ix1 i) := by
  rw [V_main_v0]
  refine shapeCast_apply (s := S4096) (t := S4096x1) _ _ _ (ix1 i) ?_
  show (S4096.rowMajor (ix1 i)).val = (S4096x1.rowMajor (ix2 i (0 : Fin 1))).val
  rw [Shape.rowMajor_val_two, Shape.rowMajor_val_one]
  show i.val = i.val * 1 + 0
  omega

/-- Entry `j` of the row of targets is target `j`. -/
theorem V_main_v1_apply (c : Dev nD) (j : Fin 4096) :
    (V m c main_v1 : S1x4096.Idx → BitVec 32) (ix2 (0 : Fin 1) j) = (m ((c : Thread nD τ).loc main_arg1) : S4096.Idx → BitVec 32) (ix1 j) := by
  rw [V_main_v1]
  refine shapeCast_apply (s := S4096) (t := S1x4096) _ _ _ (ix1 j) ?_
  show (S4096.rowMajor (ix1 j)).val = (S1x4096.rowMajor (ix2 (0 : Fin 1) j)).val
  rw [Shape.rowMajor_val_two, Shape.rowMajor_val_one]
  show j.val = 0 * 4096 + j.val
  omega

end Arrays

/-! ## The input blocks at a grid point -/

section Blocks

variable {F : FTy → Type} [FloatOps F]
variable (m : (ℓ : Loc nD τ sig) → Buf (Elt F) ℓ)

/-- The printed index maps, decided once over the grid: the tile windows sit at block row `t`, the whole-array windows
    at block zero, and the grid's one coordinate at point `t` is `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ (grid0.coords t 0).val = t.val :=
  (by decide +kernel : ∀ t : Fin grid0.N, _)

/-- The features' tile at point `t`: row `r` of the block is row `128 t + r` of the array. -/
theorem iblk0_apply (c : Dev nD) (t : Fin cfg0.N) (r : Fin 128) (d : Fin 512) (i : Fin 4096) (hi : i.val = 128 * t.val + r.val) :
    (iblk m c 0 t : Vec F S128x512 .f32) (ix2 r d) = (V m c main_arg0 : S4096x512.Idx → Elt F .f32) (ix2 i d) := by
  obtain ⟨e0, e1, -⟩ := idx_facts t
  unfold iblk
  rw [View.read_apply]
  show V m c main_arg0 (((cfg0.win 0).blk t).view.emb (ix2 r d)) = V m c main_arg0 (ix2 i d)
  refine congrArg _ (funext fun a => Fin.ext ?_)
  match a with
  | ⟨0, _⟩ => show win0_0.index t (0 : Fin 2) * 128 + 1 * r.val = i.val; omega
  | ⟨1, _⟩ => show win0_0.index t (1 : Fin 2) * 512 + 1 * d.val = d.val; omega

/-- The second window on the features holds the whole array at every point. -/
theorem iblk1_apply (c : Dev nD) (t : Fin cfg0.N) (j : Fin 4096) (d : Fin 512) :
    (iblk m c 1 t : Vec F S4096x512 .f32) (ix2 j d) = (V m c main_arg0 : S4096x512.Idx → Elt F .f32) (ix2 j d) := by
  obtain ⟨-, -, e0, e1, -⟩ := idx_facts t
  unfold iblk
  rw [View.read_apply]
  show V m c main_arg0 (((cfg0.win 1).blk t).view.emb (ix2 j d)) = V m c main_arg0 (ix2 j d)
  refine congrArg _ (funext fun a => Fin.ext ?_)
  match a with
  | ⟨0, _⟩ => show win0_1.index t (0 : Fin 2) * 4096 + 1 * j.val = j.val; omega
  | ⟨1, _⟩ => show win0_1.index t (1 : Fin 2) * 512 + 1 * d.val = d.val; omega

/-- The tile's targets as a column: entry `r` is entry `128 t + r` of the column of targets. -/
theorem iblk2_apply (c : Dev nD) (t : Fin cfg0.N) (r : Fin 128) (i : Fin 4096) (hi : i.val = 128 * t.val + r.val) :
    (iblk m c 2 t : Vec F S128x1 .i32) (ix2 r (0 : Fin 1)) = (V m c main_v0 : S4096x1.Idx → BitVec 32) (ix2 i (0 : Fin 1)) := by
  obtain ⟨-, -, -, -, e0, e1, -⟩ := idx_facts t
  unfold iblk
  rw [View.read_apply]
  show V m c main_v0 (((cfg0.win 2).blk t).view.emb (ix2 r (0 : Fin 1))) = V m c main_v0 (ix2 i (0 : Fin 1))
  refine congrArg _ (funext fun a => Fin.ext ?_)
  match a with
  | ⟨0, _⟩ => show win0_2.index t (0 : Fin 2) * 128 + 1 * r.val = i.val; omega
  | ⟨1, _⟩ => show win0_2.index t (1 : Fin 2) * 1 + 1 * 0 = 0; omega

/-- All targets as a row, at every point. -/
theorem iblk3_apply (c : Dev nD) (t : Fin cfg0.N) (j : Fin 4096) :
    (iblk m c 3 t : Vec F S1x4096 .i32) (ix2 (0 : Fin 1) j) = (V m c main_v1 : S1x4096.Idx → BitVec 32) (ix2 (0 : Fin 1) j) := by
  obtain ⟨-, -, -, -, -, -, e0, e1, -⟩ := idx_facts t
  unfold iblk
  rw [View.read_apply]
  show V m c main_v1 (((cfg0.win 3).blk t).view.emb (ix2 (0 : Fin 1) j)) = V m c main_v1 (ix2 (0 : Fin 1) j)
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * j.val = j.val; omega

end Blocks

/-! ## What each point writes back, and the two result arrays -/

section Result

variable (m : (ℓ : Loc nD τ sig) → Buf (Elt Ideal) ℓ)

/-- The features and the targets as the specification's arguments. -/
abbrev feat (c : Dev nD) : Fin 4096 → Fin 512 → EReal := fun i d => m ((c : Thread nD τ).loc main_arg0) (ix2 i d)
abbrev targ (c : Dev nD) : Fin 4096 → BitVec 32 := fun i => m ((c : Thread nD τ).loc main_arg1) (ix1 i)

/-- The stored loss tile is the specification's tile sum, whatever blocks hold the tile's rows, all rows, the tile's
    targets and all targets. -/
abbrev LossTileSpec : Prop :=
  ∀ (x : Fin 4096 → Fin 512 → EReal) (tg : Fin 4096 → BitVec 32) (t : Fin 32) (i : grid0.Coords) (hi : (i 0).val = t.val)
    (q : Vec Ideal S128x512 .f32) (k : Vec Ideal S4096x512 .f32) (tr : Vec Ideal S128x1 .i32) (tc : Vec Ideal S1x4096 .i32)
    (hq : ∀ (r : Fin 128) (d : Fin 512), q (ix2 r d) = x (rowOf t r) d) (hk : ∀ (j : Fin 4096) (d : Fin 512), k (ix2 j d) = x j d)
    (htr : ∀ r : Fin 128, tr (ix2 r (0 : Fin 1)) = tg (rowOf t r)) (htc : ∀ j : Fin 4096, tc (ix2 (0 : Fin 1) j) = tg j) (y : S1x8x128.Idx),
    lossTile (F := Ideal) i q k tr tc y = tileLoss x tg t

/-- The stored tile of counts is the specification's tile count. -/
abbrev CardTileSpec : Prop :=
  ∀ (tg : Fin 4096 → BitVec 32) (t : Fin 32) (tr : Vec Ideal S128x1 .i32) (tc : Vec Ideal S1x4096 .i32)
    (htr : ∀ r : Fin 128, tr (ix2 r (0 : Fin 1)) = tg (rowOf t r)) (htc : ∀ j : Fin 4096, tc (ix2 (0 : Fin 1) j) = tg j) (y : S1x8x128.Idx),
    cardTile (F := Ideal) tr tc y = tileCard tg t

/-- The array of losses: row `t` holds tile `t`'s summed loss at every entry. -/
abbrev lossArr (c : Dev nD) : Vec Ideal S32x8x128 .f32 := fun y => tileLoss (feat m c) (targ m c) (y 0)
/-- The array of counts: row `t` holds tile `t`'s summed count of positives at every entry. -/
abbrev cardArr (c : Dev nD) : Vec Ideal S32x8x128 .f32 := fun y => tileCard (targ m c) (y 0)

/-- Point `t` writes block row `t` of the array of losses. -/
theorem flushed4_eq (hL : LossTileSpec) (c : Dev nD) (t : Fin cfg0.N) :
    (dats m 0 c).flushed 4 t = ((cfg0.win 4).blk t).view.read (Elt Ideal) (lossArr m c) := by
  obtain ⟨-, -, -, -, -, -, -, -, e0, e1, e2, -, -, -, eg⟩ := idx_facts t
  have hN : cfg0.N = 32 := N_0
  have ht : t.val < 32 := by have := t.isLt; omega
  show (cfg0.win 4).cut (grid0.coords t) ((dats m 0 c).after 4 t) = _
  rw [after0_4]
  funext y
  rw [View.read_apply]
  show lossTile (F := Ideal) (grid0.coords t) (iblk m c 0 t) (iblk m c 1 t) (iblk m c 2 t) (iblk m c 3 t) ((cfg0.win 4).xinj (grid0.coords t) y)
    = tileLoss (feat m c) (targ m c) ((((cfg0.win 4).blk t).view.emb y) 0)
  refine (hL (feat m c) (targ m c) ⟨t.val, ht⟩ (grid0.coords t) eg (iblk m c 0 t) (iblk m c 1 t) (iblk m c 2 t) (iblk m c 3 t)
    (fun r d => (iblk0_apply m c t r d (rowOf ⟨t.val, ht⟩ r) rfl).trans (congrFun (V_main_arg0 m c) _))
    (fun j d => (iblk1_apply m c t j d).trans (congrFun (V_main_arg0 m c) _))
    (fun r => (iblk2_apply m c t r (rowOf ⟨t.val, ht⟩ r) rfl).trans (V_main_v0_apply m c _))
    (fun j => (iblk3_apply m c t j).trans (V_main_v1_apply m c j)) _).trans ?_
  refine congrArg (tileLoss (feat m c) (targ m c)) (Fin.ext ?_)
  show t.val = win0_4.index t (0 : Fin 3) * 1 + 1 * (y 0).val
  have hy : (y 0).val < 1 := (y 0).isLt
  omega

/-- Point `t` writes block row `t` of the array of counts. -/
theorem flushed5_eq (hC : CardTileSpec) (c : Dev nD) (t : Fin cfg0.N) :
    (dats m 0 c).flushed 5 t = ((cfg0.win 5).blk t).view.read (Elt Ideal) (cardArr m c) := by
  obtain ⟨-, -, -, -, -, -, -, -, -, -, -, e0, e1, e2, eg⟩ := idx_facts t
  have hN : cfg0.N = 32 := N_0
  have ht : t.val < 32 := by have := t.isLt; omega
  show (cfg0.win 5).cut (grid0.coords t) ((dats m 0 c).after 5 t) = _
  rw [after0_5]
  funext y
  rw [View.read_apply]
  show cardTile (F := Ideal) (iblk m c 2 t) (iblk m c 3 t) ((cfg0.win 5).xinj (grid0.coords t) y)
    = tileCard (targ m c) ((((cfg0.win 5).blk t).view.emb y) 0)
  refine (hC (targ m c) ⟨t.val, ht⟩ (iblk m c 2 t) (iblk m c 3 t)
    (fun r => (iblk2_apply m c t r (rowOf ⟨t.val, ht⟩ r) rfl).trans (V_main_v0_apply m c _))
    (fun j => (iblk3_apply m c t j).trans (V_main_v1_apply m c j)) _).trans ?_
  refine congrArg (tileCard (targ m c)) (Fin.ext ?_)
  show t.val = win0_5.index t (0 : Fin 3) * 1 + 1 * (y 0).val
  have hy : (y 0).val < 1 := (y 0).isLt
  omega

/-- Every entry of the array of losses lies in the block of the point named by its first coordinate. -/
theorem cover4 (i : S32x8x128.Idx) :
    ∃ t : Fin cfg0.N, (cfg0.win 4).flush t = true ∧ i ∈ ((cfg0.win 4).blk t).view.set := by
  have hN : cfg0.N = 32 := N_0
  have h0 : (i 0).val < 32 := (i 0).isLt
  have h1 : (i 1).val < 8 := (i 1).isLt
  have h2 : (i 2).val < 128 := (i 2).isLt
  obtain ⟨t, ht⟩ : ∃ t : Fin cfg0.N, t.val = (i 0).val := ⟨⟨(i 0).val, by omega⟩, rfl⟩
  obtain ⟨-, -, -, -, -, -, -, -, e0, e1, e2, -⟩ := idx_facts t
  refine ⟨t, flush0_4 t, ?_⟩
  show i ∈ ((View.whole main_v2_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- Every entry of the array of counts lies in the block of the point named by its first coordinate. -/
theorem cover5 (i : S32x8x128.Idx) :
    ∃ t : Fin cfg0.N, (cfg0.win 5).flush t = true ∧ i ∈ ((cfg0.win 5).blk t).view.set := by
  have hN : cfg0.N = 32 := N_0
  have h0 : (i 0).val < 32 := (i 0).isLt
  have h1 : (i 1).val < 8 := (i 1).isLt
  have h2 : (i 2).val < 128 := (i 2).isLt
  obtain ⟨t, ht⟩ : ∃ t : Fin cfg0.N, t.val = (i 0).val := ⟨⟨(i 0).val, by omega⟩, rfl⟩
  obtain ⟨-, -, -, -, -, -, -, -, -, -, -, e0, e1, e2, -⟩ := idx_facts t
  refine ⟨t, flush0_5 t, ?_⟩
  show i ∈ ((View.whole main_v2_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- After all 32 points the first result array is the array of losses … -/
theorem arr4_eq (hL : LossTileSpec) (c : Dev nD) : (dats m 0 c).arrAt 4 cfg0.N = lossArr m c :=
  (dats m 0 c).arrAt_eq_of_cover 4 (lossArr m c) (fun t _ => flushed4_eq m hL c t) cover4

/-- … and the second the array of counts. -/
theorem arr5_eq (hC : CardTileSpec) (c : Dev nD) : (dats m 0 c).arrAt 5 cfg0.N = cardArr m c :=
  (dats m 0 c).arrAt_eq_of_cover 5 (cardArr m c) (fun t _ => flushed5_eq m hC c t) cover5

end Result

/-! ## The kernel's result is the loss -/

/-- GIVEN that the stored tiles are the specification's tile sums, what the host lines make of the two result arrays
    after all 32 points is the specification's loss of the features and the targets. -/
theorem kernel_eq_loss_of
    (hL : ∀ (x : Fin 4096 → Fin 512 → EReal) (tg : Fin 4096 → BitVec 32) (t : Fin 32) (i : grid0.Coords) (hi : (i 0).val = t.val)
        (q : Vec Ideal S128x512 .f32) (k : Vec Ideal S4096x512 .f32) (tr : Vec Ideal S128x1 .i32) (tc : Vec Ideal S1x4096 .i32)
        (hq : ∀ (r : Fin 128) (d : Fin 512), q (ix2 r d) = x (rowOf t r) d) (hk : ∀ (j : Fin 4096) (d : Fin 512), k (ix2 j d) = x j d)
        (htr : ∀ r : Fin 128, tr (ix2 r (0 : Fin 1)) = tg (rowOf t r)) (htc : ∀ j : Fin 4096, tc (ix2 (0 : Fin 1) j) = tg j) (y : S1x8x128.Idx),
        lossTile (F := Ideal) i q k tr tc y = tileLoss x tg t)
    (hC : ∀ (tg : Fin 4096 → BitVec 32) (t : Fin 32) (tr : Vec Ideal S128x1 .i32) (tc : Vec Ideal S1x4096 .i32)
        (htr : ∀ r : Fin 128, tr (ix2 r (0 : Fin 1)) = tg (rowOf t r)) (htc : ∀ j : Fin 4096, tc (ix2 (0 : Fin 1) j) = tg j) (y : S1x8x128.Idx),
        cardTile (F := Ideal) tr tc y = tileCard tg t)
    (m : (ℓ : Loc nD τ sig) → Buf (Elt Ideal) ℓ) (c : Dev nD) :
    tailVal (F := Ideal) ((dats m 0 c).arrAt 4 cfg0.N) ((dats m 0 c).arrAt 5 cfg0.N) ValueIdx.ix0
      = Cert.Spec.loss (fun i d => m ((c : Thread nD τ).loc main_arg0) (ix2 i d)) (fun i => m ((c : Thread nD τ).loc main_arg1) (ix1 i)) := by
  refine (tailVal_rows _ _ (tileLoss (feat m c) (targ m c)) (tileCard (targ m c))
    (fun y => congrFun (arr4_eq m hL c) y) (fun y => congrFun (arr5_eq m hC c) y)).trans ?_
  rw [sum_tileLoss, sum_tileCard]
  rfl

end Cert.KernelIdeal.Hand

end
-- ==== Proof.RefValue.lean ====
/-
  The reference program computes the specification's loss.

  Each stage of the reference is read at explicit coordinates `(i, j)`, `i j < 4096`, and identified with the stage of the
  same name in the specification: the Gram matrix, the row norms and their guarded outer product, the exponentiated
  scaled cosine, the identity and same-class matrices, the diagonal-free similarities, each row's sum over the other
  classes, the normalised similarities, each row's count of positives, and the per-pair loss. Three small facts join
  the two texts: a sum that starts from the zero word starts from 0; a one-bit comparison converted to a float is the
  `if` of the specification (with `tg j = tg i` turned around); and no extended real differs from itself, so the
  "is not a number" guard keeps the value. The two final sums over index sets are the double sums over coordinates.
-/
import proofs.«137512_j75926431859348_1_alg».proof.Proof.Gen.ReferenceIdeal.Read
import proofs.«137512_j75926431859348_1_alg».proof.Proof.Spec
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx

variable (x0 : (⟨S4096x512, .f32⟩ : BufTy).Contents (Elt Ideal)) (x1 : (⟨S4096, .i32⟩ : BufTy).Contents (Elt Ideal))

/-- The features and the targets by coordinates. -/
abbrev X : Fin 4096 → Fin 512 → EReal := fun i d => x0 (ix2 i d)
abbrev T : Fin 4096 → BitVec 32 := fun i => x1 (ix1 i)

/-- The Gram matrix. -/
theorem v1_eq (i j : Fin 4096) : val_main_v1 (F := Ideal) x0 (ix2 i j) = Spec.sim (X x0) i j := by
  rw [val_main_v1_apply]
  unfold Spec.sim
  refine Finset.sum_congr rfl fun k _ => ?_
  rw [val_main_v0_apply]
  exact congrArg₂ (· * ·)
    (congrArg x0 (funext fun a => match a with | ⟨0, _⟩ => rfl | ⟨1, _⟩ => rfl))
    (congrArg x0 (funext fun a => match a with | ⟨0, _⟩ => rfl | ⟨1, _⟩ => rfl))

/-- The row norms. -/
theorem v2_eq (i : Fin 4096) : val_main_v2 (F := Ideal) x0 (ix1 i) = Spec.nrm (X x0) i := by
  rw [val_main_v2_apply, val_main_call0_v1_apply, val_main_call0_cst_apply, Ideal.hostUnary_sqrt_def,
    Ideal.ofBits_def, Ideal.ofBits_zero_f32, zero_add]
  unfold Spec.nrm
  refine congrArg Ideal.sqrt (Finset.sum_congr rfl fun k _ => ?_)
  rw [val_main_call0_v0_apply, Ideal.mulf_def]
  exact congrArg₂ (· * ·)
    (congrArg x0 (funext fun a => match a with | ⟨0, _⟩ => rfl | ⟨1, _⟩ => rfl))
    (congrArg x0 (funext fun a => match a with | ⟨0, _⟩ => rfl | ⟨1, _⟩ => rfl))

/-- The outer product of the norms. -/
theorem v7_eq (i j : Fin 4096) :
    val_main_v7 (F := Ideal) x0 (ix2 i j) = Spec.nrm (X x0) i * Spec.nrm (X x0) j := by
  rw [val_main_v7_apply, Ideal.mulf_def, val_main_v5_apply, val_main_v3_apply, val_main_v6_apply, val_main_v4_apply,
    ← v2_eq x0 i, ← v2_eq x0 j]
  exact congrArg₂ (· * ·)
    (congrArg (val_main_v2 (F := Ideal) x0) (funext fun a => match a with | ⟨0, _⟩ => rfl))
    (congrArg (val_main_v2 (F := Ideal) x0) (funext fun a => match a with | ⟨0, _⟩ => rfl))

/-- A select on a decided proposition's bit is the `if`. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The guarded product of norms. -/
theorem v10_eq (i j : Fin 4096) : val_main_v10 (F := Ideal) x0 (ix2 i j) = Spec.nmat (X x0) i j := by
  rw [val_main_v10_apply, val_main_v9_apply, val_main_v8_apply, val_main_cst_apply, val_main_call1_v1_apply,
    val_main_call1_v0_apply, val_main_cst_0_apply, v7_eq, Ideal.ofBits_def, Ideal.ofBits_def, Ideal.ofBits_zero_f32,
    Ideal.cmpf_def]
  unfold Spec.nmat Spec.cGuard
  exact select_ofBool _ _ _

/-- The exponentiated scaled cosine. -/
theorem v20_eq (i j : Fin 4096) : val_main_v20 (F := Ideal) x0 (ix2 i j) = Spec.ex (X x0) i j := by
  rw [val_main_v20_apply, val_main_v19_apply, val_main_v11_apply, val_main_v18_apply, val_main_cst_1_apply,
    v1_eq, v10_eq, Ideal.hostUnary_exp_def, Ideal.hostDivf_def, Ideal.hostDivf_def, Ideal.ofBits_def]
  rfl

/-- A one-bit word converted to a float is 1 or 0 as the proposition it decides holds or not. -/
theorem uitofp_ofBool (p : Prop) [Decidable p] :
    FloatOps.uitofp (F := Ideal) .f32 (BitVec.ofBool (decide p)) = if p then 1 else 0 := by
  show (((BitVec.ofBool (decide p)).toNat : ℝ) : EReal) = _
  by_cases h : p
  · rw [if_pos h, decide_eq_true h]; simp
  · rw [if_neg h, decide_eq_false h]; simp

/-- Integer equality as a bit. -/
theorem cmpi_eq {w : Nat} (a b : BitVec w) : IntOp.cmpi .eq a b = BitVec.ofBool (decide (a = b)) := rfl

/-- Row and column numbers below 4096 are equal exactly when their 32-bit words are. -/
theorem ofNat_eq_iff (i j : Fin 4096) : BitVec.ofNat 32 i.val = BitVec.ofNat 32 j.val ↔ i = j := by
  constructor
  · intro h
    have h2 := congrArg BitVec.toNat h
    rw [BitVec.toNat_ofNat, BitVec.toNat_ofNat] at h2
    have hi := i.isLt
    have hj := j.isLt
    exact Fin.ext (by omega)
  · intro h; rw [h]

/-- The identity matrix. -/
theorem v26_eq (i j : Fin 4096) : val_main_v26 (F := Ideal) (ix2 i j) = Spec.eye i j := by
  rw [val_main_v26_apply, val_main_v25_apply, val_main_v24_apply, val_main_v21_apply, val_main_v22_apply,
    val_main_v23_apply, val_main_c_apply]
  show FloatOps.uitofp (F := Ideal) .f32 (IntOp.cmpi .eq (BitVec.ofNat 32 i.val + 0#32) (BitVec.ofNat 32 j.val)) = _
  rw [BitVec.add_zero, cmpi_eq, uitofp_ofBool]
  unfold Spec.eye
  exact if_congr (ofNat_eq_iff i j) rfl rfl

/-- The same-class matrix. -/
theorem v17_eq (i j : Fin 4096) : val_main_v17 (F := Ideal) x1 (ix2 i j) = Spec.mask (T x1) i j := by
  rw [val_main_v17_apply, val_main_v16_apply, val_main_v14_apply, val_main_v12_apply, val_main_v15_apply,
    val_main_v13_apply, cmpi_eq, uitofp_ofBool]
  unfold Spec.mask
  refine (if_congr ?_ rfl rfl)
  have e1 : idx_main_v12 (idx_main_v14 (ix2 i j)) = ix1 j := funext fun a => match a with | ⟨0, _⟩ => rfl
  have e2 : idx_main_v13 (idx_main_v15 (ix2 i j)) = ix1 i := funext fun a => match a with | ⟨0, _⟩ => rfl
  rw [e1, e2]
  exact eq_comm

/-- The literal one of both programs. -/
theorem one_eq : FloatOps.ofBits (F := Ideal) .f32 0x3F800000#32 = Spec.cOne := rfl

/-- The similarities with the diagonal zeroed. -/
theorem v29_eq (i j : Fin 4096) : val_main_v29 (F := Ideal) x0 (ix2 i j) = Spec.act (X x0) i j := by
  rw [val_main_v29_apply, val_main_v28_apply, val_main_v27_apply, val_main_cst_2_apply, v20_eq, v26_eq, one_eq,
    Ideal.mulf_def, Ideal.subf_def]
  rfl

/-- One minus the same-class matrix. -/
theorem v31_eq (i j : Fin 4096) :
    val_main_v31 (F := Ideal) x1 (ix2 i j) = Spec.cOne - Spec.mask (T x1) i j := by
  rw [val_main_v31_apply, val_main_v30_apply, val_main_cst_3_apply, v17_eq, one_eq, Ideal.subf_def]

/-- A row's sum over the other classes. -/
theorem v33_eq (i : Fin 4096) : val_main_v33 (F := Ideal) x0 x1 (ix1 i) = Spec.neg (X x0) (T x1) i := by
  rw [val_main_v33_apply, val_main_cst_4_apply, Ideal.ofBits_def, Ideal.ofBits_zero_f32, zero_add]
  unfold Spec.neg
  refine Finset.sum_congr rfl fun k _ => ?_
  have e : idx_main_v33 (ix1 i) k = ix2 i k := funext fun a => match a with | ⟨0, _⟩ => rfl | ⟨1, _⟩ => rfl
  rw [e, val_main_v32_apply, v29_eq, v31_eq, Ideal.mulf_def]

/-- Each similarity over itself plus the row's negatives, the diagonal set to one. -/
theorem v38_eq (i j : Fin 4096) : val_main_v38 (F := Ideal) x0 x1 (ix2 i j) = Spec.nrmd (X x0) (T x1) i j := by
  have e : idx_main_v34 (idx_main_v35 (ix2 i j)) = ix1 i := funext fun a => match a with | ⟨0, _⟩ => rfl
  rw [val_main_v38_apply, val_main_v37_apply, val_main_v36_apply, val_main_v35_apply, val_main_v34_apply, e,
    v29_eq, v33_eq, v26_eq, Ideal.addf_def, Ideal.addf_def, Ideal.hostDivf_def]
  rfl

/-- The number of positives in a row. -/
theorem v39_eq (i : Fin 4096) : val_main_v39 (F := Ideal) x1 (ix1 i) = Spec.pc (T x1) i := by
  rw [val_main_v39_apply, val_main_cst_5_apply, Ideal.ofBits_def, Ideal.ofBits_zero_f32, zero_add]
  unfold Spec.pc
  refine Finset.sum_congr rfl fun k _ => ?_
  have e : idx_main_v39 (ix1 i) k = ix2 i k := funext fun a => match a with | ⟨0, _⟩ => rfl | ⟨1, _⟩ => rfl
  rw [e, v17_eq]

/-- The per-pair loss. -/
theorem v44_eq (i j : Fin 4096) : val_main_v44 (F := Ideal) x0 x1 (ix2 i j) = Spec.lm (X x0) (T x1) i j := by
  have e : idx_main_v40 (idx_main_v43 (ix2 i j)) = ix1 i := funext fun a => match a with | ⟨0, _⟩ => rfl
  rw [val_main_v44_apply, val_main_v42_apply, val_main_v41_apply, val_main_v43_apply, val_main_v40_apply, e,
    v38_eq, v39_eq, Ideal.hostDivf_def, Ideal.hostNegf_def, Ideal.negf_def, Ideal.hostUnary_log_def]
  rfl

/-- No extended real differs from itself, so the guarded value is the value. -/
theorem v46_eq (i j : Fin 4096) : val_main_v46 (F := Ideal) x0 x1 (ix2 i j) = Spec.lm (X x0) (T x1) i j := by
  rw [val_main_v46_apply, val_main_v45_apply, v44_eq, Ideal.cmpf_def]
  show Scalar.select (BitVec.ofBool (decide (Spec.lm (X x0) (T x1) i j ≠ Spec.lm (X x0) (T x1) i j))) _ _ = _
  rw [select_ofBool, if_neg (fun h => h rfl)]

/-- The per-pair loss on the positives. -/
theorem v47_eq (i j : Fin 4096) :
    val_main_v47 (F := Ideal) x0 x1 (ix2 i j) = Spec.lm (X x0) (T x1) i j * Spec.mask (T x1) i j := by
  rw [val_main_v47_apply, v46_eq, v17_eq, Ideal.mulf_def]

/-- The positives' total loss. -/
theorem v48_eq : val_main_v48 (F := Ideal) x0 x1 ix0 = ∑ i : Fin 4096, Spec.rowLoss (X x0) (T x1) i := by
  rw [val_main_v48_apply, val_main_cst_7_apply, Ideal.ofBits_def, Ideal.ofBits_zero_f32, zero_add, sum_idx2]
  refine Finset.sum_congr rfl fun i _ => ?_
  unfold Spec.rowLoss
  exact Finset.sum_congr rfl fun j _ => v47_eq x0 x1 i j

/-- The positives' number. -/
theorem v49_eq : val_main_v49 (F := Ideal) x1 ix0 = ∑ i : Fin 4096, Spec.pc (T x1) i := by
  rw [val_main_v49_apply, val_main_cst_8_apply, Ideal.ofBits_def, Ideal.ofBits_zero_f32, zero_add, sum_idx2]
  refine Finset.sum_congr rfl fun i _ => ?_
  rw [Fin.sum_univ_one, val_main_v40_apply]
  have e : idx_main_v40 (ix2 i (0 : Fin 1)) = ix1 i := funext fun a => match a with | ⟨0, _⟩ => rfl
  rw [e, v39_eq]

/-- The reference program's result is the specification's loss. -/
theorem ref_eq_loss (x0 : (⟨Cert.ReferenceIdeal.S4096x512, .f32⟩ : BufTy).Contents (Elt Ideal))
    (x1 : (⟨Cert.ReferenceIdeal.S4096, .i32⟩ : BufTy).Contents (Elt Ideal)) :
    Cert.ReferenceIdeal.Read.val_main_v50 (F := Ideal) x0 x1 ValueIdx.ix0
      = Cert.Spec.loss (fun i d => x0 (ValueIdx.ix2 i d)) (fun i => x1 (ValueIdx.ix1 i)) := by
  rw [val_main_v50_apply, v48_eq, v49_eq, Ideal.hostDivf_def]
  rfl

end Cert.RefValue

end
-- ==== Proof.lean ====
/-
  The certificate's claim for the pairwise cosine-similarity contrastive loss: the kernel program (read at the words and
  at the extended reals) and the reference program each terminate with their arguments unchanged, and over the extended
  reals the two results are equal.

  The kernel works on tiles of 128 rows against all 4096 columns: per tile it leaves the tile's summed loss and its
  summed count of positives, each repeated over an 8 × 128 tile; the host sums each result array, divides by 1024 — which
  undoes the repetition on every extended real — and divides the two. The reference takes the same per-pair losses,
  sums them over all pairs and divides by the summed counts. Both are the one function `Cert.Spec.loss` of the
  arguments: the per-pair terms agree operation by operation (a format change is the identity; the matrix product is the
  same contraction; `0 − x` is `−x`; the "is not a number" guard never fires, `x ≠ x` being false), and the sums
  differ only by grouping, which a commutative monoid does not see. No finiteness of the inputs is used.
-/
import proofs.«137512_j75926431859348_1_alg».proof.Defs
import proofs.«137512_j75926431859348_1_alg».proof.Proof.Gen.Kernel
import proofs.«137512_j75926431859348_1_alg».proof.Proof.Gen.KernelIdeal
import proofs.«137512_j75926431859348_1_alg».proof.Proof.Gen.ReferenceIdeal
import proofs.«137512_j75926431859348_1_alg».proof.Proof.Gen.Pre_finite_inputs
import proofs.«137512_j75926431859348_1_alg».proof.Proof.Gen.ReferenceIdeal.Run
import proofs.«137512_j75926431859348_1_alg».proof.Proof.Gen.ReferenceIdeal.Read
import proofs.«137512_j75926431859348_1_alg».proof.Proof.KBody
import proofs.«137512_j75926431859348_1_alg».proof.Proof.KLaunch
import proofs.«137512_j75926431859348_1_alg».proof.Proof.BBody
import proofs.«137512_j75926431859348_1_alg».proof.Proof.BLaunch
import proofs.«137512_j75926431859348_1_alg».proof.Proof.KTileEq
import proofs.«137512_j75926431859348_1_alg».proof.Proof.KValue
import proofs.«137512_j75926431859348_1_alg».proof.Proof.RefValue
import Idealize.ShloMosaic.Adequacy
import Idealize.ShloMosaic.Init

noncomputable section

namespace Cert.Proof

open Idealize.ShloMosaic Idealize.SL.Sem

/-- The word-level kernel program terminates and leaves its arguments as launched. -/
theorem frame_k : Cert.frame_Kernel := fun m ρ _ =>
  (θ_run (Cert.Kernel.defs (F := Bits)) _ _).mono (fun _ h c => (h c).2)
    (Cert.Kernel.Hand.run_main_of (F := Bits) m ρ (Cert.Kernel.Hand.body_obligation m))

/-- So does the idealized kernel program. -/
theorem frame_ki : Cert.frame_KernelIdeal := fun m ρ _ =>
  (θ_run (Cert.KernelIdeal.defs (F := Ideal)) _ _).mono (fun _ h c => (h c).2)
    (Cert.KernelIdeal.Hand.run_main_of (F := Ideal) m ρ (Cert.KernelIdeal.Hand.body_obligation m))

/-- And the reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote nothing. -/
theorem preserves : Cert.preserves_Kernel_KernelIdeal := trivial

/-- Over the extended reals the kernel's result is the loss of its arguments, and so is the reference's, of arguments
    that agree. -/
theorem algebraic : Cert.algebraic_KernelIdeal_ReferenceIdeal := by
  intro m ρ m' ρ' _ hagree
  refine ⟨fun c => Cert.KernelIdeal.Hand.tailVal (F := Ideal)
      ((Cert.KernelIdeal.Hand.dats m 0 c).arrAt 4 Cert.KernelIdeal.cfg0.N) ((Cert.KernelIdeal.Hand.dats m 0 c).arrAt 5 Cert.KernelIdeal.cfg0.N),
    Cert.KernelIdeal.Hand.run_main_of (F := Ideal) m ρ (Cert.KernelIdeal.Hand.body_obligation m), ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v50_eq]
  funext i
  rw [ValueIdx.eq_ix0 i, Cert.RefValue.ref_eq_loss, (hagree c).1, (hagree c).2]
  exact (Cert.KernelIdeal.Hand.kernel_eq_loss_of Cert.KernelIdeal.Hand.lossTile_eq Cert.KernelIdeal.Hand.cardTile_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
